-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S1000x512 : Shape := ⟨2, ![1000, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S131072x512 .f32) (main_arg1 : FVec F S1000x512 .f32) (main_arg2 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S131072x512 : Shape := ⟨2, ![131072, 512]⟩
abbrev S1000x512 : Shape := ⟨2, ![1000, 512]⟩
abbrev S131072 : Shape := ⟨1, ![131072]⟩
abbrev S1x131072 : Shape := ⟨2, ![1, 131072]⟩
abbrev S2x1024x512 : Shape := ⟨3, ![2, 1024, 512]⟩
abbrev S2x1024x1 : Shape := ⟨3, ![2, 1024, 1]⟩
abbrev S4096x512 : Shape := ⟨2, ![4096, 512]⟩
abbrev S1x4096 : Shape := ⟨2, ![1, 4096]⟩
abbrev S1x1024x512 : Shape := ⟨3, ![1, 1024, 512]⟩
abbrev S1x1024x1 : Shape := ⟨3, ![1, 1024, 1]⟩
abbrev S1024x1 : Shape := ⟨2, ![1024, 1]⟩
abbrev S1024x4096 : Shape := ⟨2, ![1024, 4096]⟩
abbrev S1024x512 : Shape := ⟨2, ![1024, 512]⟩
abbrev S4096x1 : Shape := ⟨2, ![4096, 1]⟩
abbrev S1x1000x512 : Shape := ⟨3, ![1, 1000, 512]⟩
abbrev S1x1000x1 : Shape := ⟨3, ![1, 1000, 1]⟩
abbrev S1000 : Shape := ⟨1, ![1000]⟩
abbrev S_ : Shape := ⟨0, ![]⟩
abbrev S1000x1 : Shape := ⟨2, ![1000, 1]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S1x1000x1000 : Shape := ⟨3, ![1, 1000, 1000]⟩
abbrev S1000x1000 : Shape := ⟨2, ![1000, 1000]⟩

abbrev nBuf : Space → Nat
  | .hbm => 55
  | .vmem => 12
  | .smem => 0
  | _ => 0

abbrev bufTy : (tb : Table) → Fin (tcTables nBuf tb) → BufTy
  | .hbm, ⟨0, _⟩ => ⟨S131072x512, .f32⟩
  | .hbm, ⟨1, _⟩ => ⟨S1000x512, .f32⟩
  | .hbm, ⟨2, _⟩ => ⟨S131072, .i32⟩
  | .hbm, ⟨3, _⟩ => ⟨S1x131072, .i32⟩
  | .hbm, ⟨4, _⟩ => ⟨S2x1024x512, .f32⟩
  | .hbm, ⟨5, _⟩ => ⟨S2x1024x1, .f32⟩
  | .hbm, ⟨6, _⟩ => ⟨S1x1000x512, .f32⟩
  | .hbm, ⟨7, _⟩ => ⟨S1000x512, .f32⟩
  | .hbm, ⟨8, _⟩ => ⟨S1x1000x512, .f32⟩
  | .hbm, ⟨9, _⟩ => ⟨S1000x512, .f32⟩
  | .hbm, ⟨10, _⟩ => ⟨S1000x512, .f32⟩
  | .hbm, ⟨11, _⟩ => ⟨S1x1000x1, .f32⟩
  | .hbm, ⟨12, _⟩ => ⟨S1000, .f32⟩
  | .hbm, ⟨13, _⟩ => ⟨S1x1000x1, .f32⟩
  | .hbm, ⟨14, _⟩ => ⟨S1000, .f32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S1000x512, .f32⟩
  | .hbm, ⟨20, _⟩ => ⟨S1000x1, .f32⟩
  | .hbm, ⟨21, _⟩ => ⟨S1000x512, .f32⟩
  | .hbm, ⟨22, _⟩ => ⟨S1000x512, .f32⟩
  | .hbm, ⟨23, _⟩ => ⟨S_, .i32⟩
  | .hbm, ⟨24, _⟩ => ⟨S_, .f32⟩
  | .hbm, ⟨25, _⟩ => ⟨S1024x512, .f32⟩
  | .hbm, ⟨26, _⟩ => ⟨S_, .i32⟩
  | .hbm, ⟨27, _⟩ => ⟨S_, .f32⟩
  | .hbm, ⟨28, _⟩ => ⟨S1024x512, .f32⟩
  | .hbm, ⟨29, _⟩ => ⟨S1x1024x512, .f32⟩
  | .hbm, ⟨30, _⟩ => ⟨S1x1024x512, .f32⟩
  | .hbm, ⟨31, _⟩ => ⟨S2x1024x512, .f32⟩
  | .hbm, ⟨32, _⟩ => ⟨S2x1024x1024, .f32⟩
  | .hbm, ⟨33, _⟩ => ⟨S1x1000x1000, .f32⟩
  | .hbm, ⟨34, _⟩ => ⟨S1000x1000, .f32⟩
  | .hbm, ⟨35, _⟩ => ⟨S1x1000x1000, .f32⟩
  | .hbm, ⟨36, _⟩ => ⟨S1000x1000, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1000x1000, .f32⟩
  | .hbm, ⟨44, _⟩ => ⟨S1000x1000, .i1⟩
  | .hbm, ⟨45, _⟩ => ⟨S1000x1000, .f32⟩
  | .hbm, ⟨46, _⟩ => ⟨S1000x1000, .f32⟩
  | .hbm, ⟨47, _⟩ => ⟨S_, .f32⟩
  | .hbm, ⟨48, _⟩ => ⟨S_, .f32⟩
  | .hbm, ⟨49, _⟩ => ⟨S1000x1000, .f32⟩
  | .hbm, ⟨50, _⟩ => ⟨S1000x1000, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S1x4096, .i32⟩
  | .local _ .vmem, ⟨3, _⟩ => ⟨S1x4096, .i32⟩
  | .local _ .vmem, ⟨4, _⟩ => ⟨S1x1024x512, .f32⟩
  | .local _ .vmem, ⟨5, _⟩ => ⟨S1x1024x512, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x1024, .f32⟩
  | .local _ .vmem, ⟨11, _⟩ => ⟨S1x1024x1024, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_call0_v0 : Ref sig .tc := ⟨.hbm, 24, rfl⟩
abbrev main_v18 : Ref sig .tc := ⟨.hbm, 25, rfl⟩
abbrev main_c_0 : Ref sig .tc := ⟨.hbm, 26, rfl⟩
abbrev main_call1_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_call2_v0 : Ref sig .tc := ⟨.hbm, 48, rfl⟩
abbrev main_call2_v1 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S131072_S1x131072 : S131072.ShapeCasts S1x131072
  inb_S1x1024x512_S1x1024x512_0_0_0 : ∀ a, (![0, 0, 0] : Fin 3 → Nat) a + S1x1024x512.size a ≤ S1x1024x512.size a
  h_S1x1024x512 : 0 < S1x1024x512.numel
  inb_S1x1024x1_S1x1024x1_0_0_0 : ∀ a, (![0, 0, 0] : Fin 3 → Nat) a + S1x1024x1.size a ≤ S1x1024x1.size a
  h_S1x1024x1 : 0 < S1x1024x1.numel
  inb_S4096x512_S4096x512_0_0 : ∀ a, (![0, 0] : Fin 2 → Nat) a + S4096x512.size a ≤ S4096x512.size a
  h_S4096x512 : 0 < S4096x512.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S1024x1_d0_w32 : S1024x1.Iotas .tc 32 [0]
  broadcasts_S1024x1_S1024x4096 : S1024x1.Broadcasts S1024x4096
  broadcasts_S1x4096_S1024x4096 : S1x4096.Broadcasts S1024x4096
  natLt_1_32 : 1 < 32
  bitsLt_bf16_f32 : FTy.bits .bf16 < FTy.bits .f32
  shapeCasts_S1x1024x512_S1x1024x512 : S1x1024x512.ShapeCasts S1x1024x512
  shapeCasts_S1024x512_S1x1024x512 : S1024x512.ShapeCasts S1x1024x512
  shapeCasts_S1x1024x1_S1x1024x1 : S1x1024x1.ShapeCasts S1x1024x1
  shapeCasts_S1024x1_S1x1024x1 : S1024x1.ShapeCasts S1x1024x1
  slices_S2x1024x512_S1x1000x512_0_0_0 : S2x1024x512.Slices ![0, 0, 0] S1x1000x512
  shapeCasts_S1x1000x512_S1000x512 : S1x1000x512.ShapeCasts S1000x512
  slices_S2x1024x512_S1x1000x512_1_0_0 : S2x1024x512.Slices ![1, 0, 0] S1x1000x512
  slices_S2x1024x1_S1x1000x1_0_0_0 : S2x1024x1.Slices ![0, 0, 0] S1x1000x1
  shapeCasts_S1x1000x1_S1000 : S1x1000x1.ShapeCasts S1000
  slices_S2x1024x1_S1x1000x1_1_0_0 : S2x1024x1.Slices ![1, 0, 0] S1x1000x1
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  pads_S1000x512_S1024x512_0240_000 : S1000x512.Pads (![0, 0] : Fin 2 → Nat) ![24, 0] ![0, 0] S1024x512
  h_S_ : 0 < S_.numel
  bcast_S1024x512_S1x1024x512_1_2 : S1024x512.BroadcastsInDim S1x1024x512 (![1, 2] : Fin 2 → Fin S1x1024x512.rank)
  concatenates_S1x1024x512_S1x1024x512_S2x1024x512_d0 : Shape.Concatenates [S1x1024x512, S1x1024x512] S2x1024x512 0
  shapeCasts_S1x1024x512_S1024x512 : S1x1024x512.ShapeCasts S1024x512
  reduces_S1024x512_S1024 : S1024x512.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1x1024_d1_w32 : S1x1024.Iotas .tc 32 [1]
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  slices_S2x1024x1024_S1x1000x1000_0_0_0 : S2x1024x1024.Slices ![0, 0, 0] S1x1000x1000
  shapeCasts_S1x1000x1000_S1000x1000 : S1x1000x1000.ShapeCasts S1000x1000
  slices_S2x1024x1024_S1x1000x1000_1_0_0 : S2x1024x1024.Slices ![1, 0, 0] S1x1000x1000
  reducesTo_S1000x1000_S_d0_1 : S1000x1000.ReducesTo [0, 1] S_
  bcast_S_S1000x1000 : S_.BroadcastsInDim S1000x1000 (![] : Fin 0 → Fin S1000x1000.rank)
  dot_S1024x4096_S4096x512_S1024x512_1_0_0_1_n_n_wf : DotDims.WF S1024x4096 S4096x512 S1024x512 [1] [0] [0] [1] [] []
  dot_S1024x4096_S4096x1_S1024x1_1_0_0_1_n_n_wf : DotDims.WF S1024x4096 S4096x1 S1024x1 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x131072.size a
  hwx0_1 : ∀ i : grid0.Coords, EltTy.bits .i32 = 32 ∨ (Rect.block (s := S1x131072) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S2x1024x512.size a
  hwx0_2 : ∀ i : grid0.Coords, EltTy.bits .f32 = 32 ∨ (Rect.block (s := S2x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S2x1024x512.size a
  hwx1_0 : ∀ i : grid1.Coords, EltTy.bits .f32 = 32 ∨ (Rect.block (s := S2x1024x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S2x1024x1024.size a
  hwx1_1 : ∀ i : grid1.Coords, EltTy.bits .f32 = 32 ∨ (Rect.block (s := S2x1024x1024) S1x1024x1024.size (cc1_transform_1 i) (hinb1_1 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x4096_S4096x1_S1024x1_1_0_0_1_n_n : DotDims S1024x4096 S4096x1 S1024x1 where
  lhsContracting := [1]
  rhsContracting := [0]
  lhsNonContracting := [0]
  rhsNonContracting := [1]
  lhsBatch := []
  rhsBatch := []
  wf := dot_S1024x4096_S4096x1_S1024x1_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S131072x512 : Shape := ⟨2, ![131072, 512]⟩
abbrev S1000x512 : Shape := ⟨2, ![1000, 512]⟩
abbrev S131072 : Shape := ⟨1, ![131072]⟩
abbrev S_ : Shape := ⟨0, ![]⟩
abbrev S1000 : Shape := ⟨1, ![1000]⟩
abbrev S1000x1 : Shape := ⟨2, ![1000, 1]⟩
abbrev S1x1000 : Shape := ⟨2, ![1, 1000]⟩
abbrev S1000x1000 : Shape := ⟨2, ![1000, 1000]⟩
abbrev S512x1000 : Shape := ⟨2, ![512, 1000]⟩
abbrev S131072x1 : Shape := ⟨2, ![131072, 1]⟩

abbrev nBuf : Space → Nat
  | .hbm => 102
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S1000x512, .f32⟩
  | .hbm, ⟨2, _⟩ => ⟨S131072, .i32⟩
  | .hbm, ⟨3, _⟩ => ⟨S1000x512, .f32⟩
  | .hbm, ⟨4, _⟩ => ⟨S_, .f32⟩
  | .hbm, ⟨5, _⟩ => ⟨S1000, .f32⟩
  | .hbm, ⟨6, _⟩ => ⟨S1000x1, .f32⟩
  | .hbm, ⟨7, _⟩ => ⟨S1000x512, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S1000x1000, .f32⟩
  | .hbm, ⟨12, _⟩ => ⟨S1000x1000, .f32⟩
  | .hbm, ⟨13, _⟩ => ⟨S1000x1000, .f32⟩
  | .hbm, ⟨14, _⟩ => ⟨S512x1000, .f32⟩
  | .hbm, ⟨15, _⟩ => ⟨S1000x1000, .f32⟩
  | .hbm, ⟨16, _⟩ => ⟨S_, .f32⟩
  | .hbm, ⟨17, _⟩ => ⟨S1000x1000, .f32⟩
  | .hbm, ⟨18, _⟩ => ⟨S1000x1000, .f32⟩
  | .hbm, ⟨19, _⟩ => ⟨S1000x1000, .f32⟩
  | .hbm, ⟨20, _⟩ => ⟨S_, .f32⟩
  | .hbm, ⟨21, _⟩ => ⟨S1000x1000, .f32⟩
  | .hbm, ⟨22, _⟩ => ⟨S1000x1000, .f32⟩
  | .hbm, ⟨23, _⟩ => ⟨S_, .f32⟩
  | .hbm, ⟨24, _⟩ => ⟨S1000x1000, .f32⟩
  | .hbm, ⟨25, _⟩ => ⟨S1000x1000, .i1⟩
  | .hbm, ⟨26, _⟩ => ⟨S_, .f32⟩
  | .hbm, ⟨27, _⟩ => ⟨S_, .f32⟩
  | .hbm, ⟨28, _⟩ => ⟨S1000x1000, .f32⟩
  | .hbm, ⟨29, _⟩ => ⟨S1000x1000, .f32⟩
  | .hbm, ⟨30, _⟩ => ⟨S1000x1000, .f32⟩
  | .hbm, ⟨31, _⟩ => ⟨S_, .f32⟩
  | .hbm, ⟨32, _⟩ => ⟨S_, .f32⟩
  | .hbm, ⟨33, _⟩ => ⟨S1000x1000, .f32⟩
  | .hbm, ⟨34, _⟩ => ⟨S1000x1000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S131072, .f32⟩
  | .hbm, ⟨43, _⟩ => ⟨S_, .f32⟩
  | .hbm, ⟨44, _⟩ => ⟨S1000, .f32⟩
  | .hbm, ⟨45, _⟩ => ⟨S131072x1, .i32⟩
  | .hbm, ⟨46, _⟩ => ⟨S1000, .f32⟩
  | .hbm, ⟨47, _⟩ => ⟨S_, .f32⟩
  | .hbm, ⟨48, _⟩ => ⟨S1000x512, .f32⟩
  | .hbm, ⟨49, _⟩ => ⟨S131072x1, .i32⟩
  | .hbm, ⟨50, _⟩ => ⟨S1000x512, .f32⟩
  | .hbm, ⟨51, _⟩ => ⟨S1000x512, .f32⟩
  | .hbm, ⟨52, _⟩ => ⟨S_, .f32⟩
  | .hbm, ⟨53, _⟩ => ⟨S1000, .f32⟩
  | .hbm, ⟨54, _⟩ => ⟨S1000, .f32⟩
  | .hbm, ⟨55, _⟩ => ⟨S1000x1, .f32⟩
  | .hbm, ⟨56, _⟩ => ⟨S1000x512, .f32⟩
  | .hbm, ⟨57, _⟩ => ⟨S1000x512, .f32⟩
  | .hbm, ⟨58, _⟩ => ⟨S1000x512, .f32⟩
  | .hbm, ⟨59, _⟩ => ⟨S_, .f32⟩
  | .hbm, ⟨60, _⟩ => ⟨S1000, .f32⟩
  | .hbm, ⟨61, _⟩ => ⟨S1000x1, .f32⟩
  | .hbm, ⟨62, _⟩ => ⟨S1000x512, .f32⟩
  | .hbm, ⟨63, _⟩ => ⟨S_, .f32⟩
  | .hbm, ⟨64, _⟩ => ⟨S1000, .f32⟩
  | .hbm, ⟨65, _⟩ => ⟨S1x1000, .f32⟩
  | .hbm, ⟨66, _⟩ => ⟨S1000x1000, .f32⟩
  | .hbm, ⟨67, _⟩ => ⟨S1000x1000, .f32⟩
  | .hbm, ⟨68, _⟩ => ⟨S1000x1000, .f32⟩
  | .hbm, ⟨69, _⟩ => ⟨S512x1000, .f32⟩
  | .hbm, ⟨70, _⟩ => ⟨S1000x1000, .f32⟩
  | .hbm, ⟨71, _⟩ => ⟨S_, .f32⟩
  | .hbm, ⟨72, _⟩ => ⟨S1000x1000, .f32⟩
  | .hbm, ⟨73, _⟩ => ⟨S1000x1000, .f32⟩
  | .hbm, ⟨74, _⟩ => ⟨S1000x1000, .f32⟩
  | .hbm, ⟨75, _⟩ => ⟨S_, .f32⟩
  | .hbm, ⟨76, _⟩ => ⟨S1000x1000, .f32⟩
  | .hbm, ⟨77, _⟩ => ⟨S1000x1000, .f32⟩
  | .hbm, ⟨78, _⟩ => ⟨S_, .f32⟩
  | .hbm, ⟨79, _⟩ => ⟨S1000x1000, .f32⟩
  | .hbm, ⟨80, _⟩ => ⟨S1000x1000, .i1⟩
  | .hbm, ⟨81, _⟩ => ⟨S_, .f32⟩
  | .hbm, ⟨82, _⟩ => ⟨S_, .f32⟩
  | .hbm, ⟨83, _⟩ => ⟨S1000x1000, .f32⟩
  | .hbm, ⟨84, _⟩ => ⟨S1000x1000, .f32⟩
  | .hbm, ⟨85, _⟩ => ⟨S1000x1000, .f32⟩
  | .hbm, ⟨86, _⟩ => ⟨S_, .f32⟩
  | .hbm, ⟨87, _⟩ => ⟨S_, .f32⟩
  | .hbm, ⟨88, _⟩ => ⟨S1000x1000, .f32⟩
  | .hbm, ⟨89, _⟩ => ⟨S1000x1000, .f32⟩
  | .hbm, ⟨90, _⟩ => ⟨S1000x1000, .f32⟩
  | .hbm, ⟨91, _⟩ => ⟨S1000x1000, .i1⟩
  | .hbm, ⟨92, _⟩ => ⟨S1000x1000, .f32⟩
  | .hbm, ⟨93, _⟩ => ⟨S1000x1000, .f32⟩
  | .hbm, ⟨94, _⟩ => ⟨S_, .f32⟩
  | .hbm, ⟨95, _⟩ => ⟨S_, .f32⟩
  | .hbm, ⟨96, _⟩ => ⟨S1000x1000, .f32⟩
  | .hbm, ⟨97, _⟩ => ⟨S1000x1000, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_cst_10 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_11 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_12 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_cst_18 : Ref sig .tc := ⟨.hbm, 81, rfl⟩
abbrev main_call2_v0 : Ref sig .tc := ⟨.hbm, 82, rfl⟩
abbrev main_call2_v1 : Ref sig .tc := ⟨.hbm, 83, rfl⟩
abbrev main_v55 : Ref sig .tc := ⟨.hbm, 84, rfl⟩
abbrev main_v56 : Ref sig .tc := ⟨.hbm, 85, rfl⟩
abbrev main_cst_19 : Ref sig .tc := ⟨.hbm, 86, rfl⟩
abbrev main_call3_v0 : Ref sig .tc := ⟨.hbm, 87, rfl⟩
abbrev main_call3_v1 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_20 : Ref sig .tc := ⟨.hbm, 94, rfl⟩
abbrev main_call4_v0 : Ref sig .tc := ⟨.hbm, 95, rfl⟩
abbrev main_call4_v1 : Ref sig .tc := ⟨.hbm, 96, rfl⟩
abbrev main_v62 : Ref sig .tc := ⟨.hbm, 97, rfl⟩
abbrev main_cst_21 : Ref sig .tc := ⟨.hbm, 98, rfl⟩
abbrev main_v63 : Ref sig .tc := ⟨.hbm, 99, rfl⟩
abbrev main_cst_22 : Ref sig .tc := ⟨.hbm, 100, rfl⟩
abbrev main_v64 : Ref sig .tc := ⟨.hbm, 101, rfl⟩

abbrev nD : Nat := 1
abbrev τ : Topo := Topo.v7x

variable {F : FTy → Type} [FloatOps F]

class Facts₀ : Prop where
  reducesTo_S1000x512_S1000_d1 : S1000x512.ReducesTo [1] S1000
  h_S_ : 0 < S_.numel
  bcast_S1000_S1000x1_0 : S1000.BroadcastsInDim S1000x1 (![0] : Fin 1 → Fin S1000x1.rank)
  bcast_S1000_S1x1000_1 : S1000.BroadcastsInDim S1x1000 (![1] : Fin 1 → Fin S1x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  transposes_S1000x512_S512x1000_1_0 : S1000x512.Transposes [1, 0] S512x1000
  bcast_S_S1000x1000 : S_.BroadcastsInDim S1000x1000 (![] : Fin 0 → Fin S1000x1000.rank)
  reducesTo_S1000x1000_S_d0_1 : S1000x1000.ReducesTo [0, 1] S_
  bcast_S_S131072 : S_.BroadcastsInDim S131072 (![] : Fin 0 → Fin S131072.rank)
  bcast_S_S1000 : S_.BroadcastsInDim S1000 (![] : Fin 0 → Fin S1000.rank)
  bcast_S131072_S131072x1_0 : S131072.BroadcastsInDim S131072x1 (![0] : Fin 1 → Fin S131072x1.rank)
  bcast_S_S1000x512 : S_.BroadcastsInDim S1000x512 (![] : Fin 0 → Fin S1000x512.rank)
  bcast_S1000x1_S1000x512_0_1 : S1000x1.BroadcastsInDim S1000x512 (![0, 1] : Fin 2 → Fin S1000x512.rank)
  dot_S1000x512_S512x1000_S1000x1000_1_0_0_1_n_n_wf : DotDims.WF S1000x512 S512x1000 S1000x1000 [1] [0] [0] [1] [] []
  scatter_S1000_S131072x1_S131072_n_0_0_1_wf : ScatterDims.WF S1000 S131072x1 S131072 [] [0] [0] 1
  scatter_S1000x512_S131072x1_S131072x512_1_0_0_1_wf : ScatterDims.WF S1000x512 S131072x1 S131072x512 [1] [0] [0] 1

variable [Facts₀]

def dot_S1000x512_S512x1000_S1000x1000_1_0_0_1_n_n : DotDims S1000x512 S512x1000 S1000x1000 where
  lhsContracting := [1]
  rhsContracting := [0]
  lhsNonContracting := [0]
  rhsNonContracting := [1]
  lhsBatch := []
  rhsBatch := []
  wf := dot_S1000x512_S512x1000_S1000x1000_1_0_0_1_n_n_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf
def scatter_S1000x512_S131072x1_S131072x512_1_0_0_1 : ScatterDims S1000x512 S131072x1 S131072x512 where
  updateWindowDims := [1]
  insertedWindowDims := [0]
  scatterDimsToOperandDims := [0]
  indexVectorDim := 1
  wf := scatter_S1000x512_S131072x1_S131072x512_1_0_0_1_wf

class Facts : Prop extends Facts₀ where

variable [Facts]
-- ==== Proof.FiniteInputs.lean ====
/-
  From the precondition to real entries.  The precondition says that every entry of the features and of the center has
  absolute value below +∞ (a conjunction of two `all`s of `|x| < +∞`).  An extended real whose absolute value
  `max x (-x)` is below +∞ is neither infinity, so it is a real.
-/
import proofs.«416394_j29111288332476_3_alg».proof.Pre_finite_inputs
import Idealize.ShloMosaic.Lib.ReduceAll
import Idealize.ShloMosaic.Lib.ValueIdx
import Idealize.ShloMosaic.PureOps.Ideal.Laws

noncomputable section

open Idealize.ShloMosaic

namespace Cert.FiniteInputs

/-- An extended real whose absolute value compares below the word of +∞ is a real. -/
theorem real_of_abs_lt_top (x : EReal)
    (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.cmpf_def, Ideal.absf_def, Ideal.ofBits_def, htop] at h
  have h' : max x (-x) < ⊤ := by
    by_contra hn
    simp [Ideal.cmp, hn] at h
  induction x using EReal.rec with
  | bot => simp at h'
  | coe r => exact ⟨r, rfl⟩
  | top => simp at h'

open Cert.Pre_finite_inputs

variable [Cert.Pre_finite_inputs.Facts]

instance : Subsingleton S_.Idx := ⟨fun a b => funext fun d => d.elim0⟩

/-- Under the precondition every entry of the features and of the center is a real. -/
theorem reals_of_pre (x0 : FVec Ideal S131072x512 .f32) (x1 : FVec Ideal S1000x512 .f32) (x2 : IVec S131072 32)
    (h : fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  refine ⟨fun i => ?_, fun i => ?_⟩
  · exact real_of_abs_lt_top (x0 i) (Host.reduce_andi_all _ _ _ _ _ ha i)
  · exact real_of_abs_lt_top (x1 i) (Host.reduce_andi_all _ _ _ _ _ hb i)

end Cert.FiniteInputs

end
-- ==== Proof.Spec.lean ====
/-
  The mathematics shared by the two programs, over the extended reals.

  SEGMENT SUMS.  The batch of 131072 rows is cut into 32 tiles of 4096 rows; tile `t` holds rows `4096 t + b`.
  For a class `cls`, a row counts when its label word is the word of `cls` (`hit`); a tile's share of the
  class's feature sum is the sum over its rows of `hit * feature` (`tileSum`), its share of the class's count the sum
  of `hit * 1` (`tileCnt`); a half of the batch is 16 consecutive tiles (`halfSum`, `halfCnt`).

  DISTANCES.  For two rows `x y` of 512 entries: `sq x = ∑ x_k²`, `dot x y = ∑ x_k y_k`,
  `gap = max (sq x + sq y - 2 (dot x y)) 0` and the distance is `root gap`, where `root d = √d` when `d > 0` and
  `0` otherwise. `distMasked` is the same with the gap replaced by `0` on the diagonal.

  THE LOSS.  `lossOf dinit dnew`: the threshold is three times the mean of `dinit`, the loss the mean of
  `thr - dnew` where `dnew < thr` and of `0` elsewhere.
-/
import Idealize.ShloMosaic.PureOps.Ideal
import Idealize.ShloMosaic.Lib.ValueIdx

noncomputable section

open scoped BigOperators

namespace Cert.Spec

open Idealize.ShloMosaic Idealize.ShloMosaic.ValueIdx

abbrev S0 : Shape := ⟨0, ![]⟩
abbrev SD : Shape := ⟨2, ![1000, 1000]⟩

/-- Row `b` of tile `t` is row `4096 t + b` of the batch. -/
def tileRow (t : Fin 32) (b : Fin 4096) : Fin 131072 :=
  ⟨4096 * t.val + b.val, by have := t.isLt; have := b.isLt; omega⟩

/-- Tile `i` of half `h` is tile `16 h + i`. -/
def halfTile (h : Fin 2) (i : Fin 16) : Fin 32 :=
  ⟨16 * h.val + i.val, by have := h.isLt; have := i.isLt; omega⟩

/-- `1` when the label word is the class's word, else `0`. -/
def hit (l : BitVec 32) (cls : Nat) : EReal := if BitVec.ofNat 32 cls = l then 1 else 0

/-- The bf16 word of one, read at the extended reals. -/
def one16 : EReal := Ideal.ofBits .bf16 0x3F80#16
def zero32 : EReal := Ideal.ofBits .f32 0x00000000#32
def one32 : EReal := Ideal.ofBits .f32 0x3F800000#32
def two32 : EReal := Ideal.ofBits .f32 0x40000000#32

/-- Tile `t`'s share of class `cls`'s feature sum in column `d`. -/
def tileSum (feat : (⟨2, ![131072, 512]⟩ : Shape).Idx → EReal) (lbl : Fin 131072 → BitVec 32)
    (t : Fin 32) (cls : Fin 1024) (d : Fin 512) : EReal :=
  ∑ b : Fin 4096, hit (lbl (tileRow t b)) cls.val * feat (ix2 (tileRow t b) d)

/-- Tile `t`'s share of class `cls`'s count. -/
def tileCnt (lbl : Fin 131072 → BitVec 32) (t : Fin 32) (cls : Fin 1024) : EReal :=
  ∑ b : Fin 4096, hit (lbl (tileRow t b)) cls.val * one16

/-- Half `h` of the batch: its 16 tiles' shares added. -/
def halfSum (feat : (⟨2, ![131072, 512]⟩ : Shape).Idx → EReal) (lbl : Fin 131072 → BitVec 32)
    (h : Fin 2) (cls : Fin 1024) (d : Fin 512) : EReal :=
  ∑ i : Fin 16, tileSum feat lbl (halfTile h i) cls d

def halfCnt (lbl : Fin 131072 → BitVec 32) (h : Fin 2) (cls : Fin 1024) : EReal :=
  ∑ i : Fin 16, tileCnt lbl (halfTile h i) cls

/-- The sum of a row's squares, and the inner product of two rows. -/
def sq (x : Fin 512 → EReal) : EReal := ∑ k : Fin 512, x k * x k
def dot (x y : Fin 512 → EReal) : EReal := ∑ k : Fin 512, x k * y k

/-- The clamped squared distance from the two squared norms and the inner product. -/
def gap (a b g : EReal) : EReal := max (a + b - two32 * g) zero32

/-- The guarded square root: `√d` where `d > 0` (the root taken of `d` there and of `1` elsewhere), `0` elsewhere. -/
def root (d : EReal) : EReal :=
  Scalar.select (Ideal.cmp .ogt d zero32)
    (Ideal.sqrt (Scalar.select (Ideal.cmp .ogt d zero32) d one32)) zero32

/-- The distance of two rows. -/
def dist (x y : Fin 512 → EReal) : EReal := root (gap (sq x) (sq y) (dot x y))

/-- The same with the squared distance forced to `0` on the diagonal. -/
def distMasked (same : Prop) [Decidable same] (x y : Fin 512 → EReal) : EReal :=
  root (if same then zero32 else gap (sq x) (sq y) (dot x y))

/-- The hinge loss of the new distances against three times the mean of the initial ones, as the host computes it. -/
def lossOf {F : FTy → Type} [FloatOps F] (hb : S0.BroadcastsInDim SD (![] : Fin 0 → Fin SD.rank))
    (hr : SD.ReducesTo [0, 1] S0) (h0 : 0 < S0.numel) (dinit dnew : FVec F SD .f32) : FVec F S0 .f32 :=
  Host.divf
    (Host.reduceAdd
      (select
        (cmpf .olt dnew (broadcastInDim SD ![] hb
          (mulf (Host.divf (Host.reduceAdd dinit (constant S0 .f32 0x00000000#32) hr h0) (constant S0 .f32 0x49742400#32))
            (constant S0 .f32 0x40400000#32))))
        (subf (broadcastInDim SD ![] hb
          (mulf (Host.divf (Host.reduceAdd dinit (constant S0 .f32 0x00000000#32) hr h0) (constant S0 .f32 0x49742400#32))
            (constant S0 .f32 0x40400000#32))) dnew)
        (broadcastInDim SD ![] hb (id (constant S0 .f32 0x00000000#32))))
      (constant S0 .f32 0x00000000#32) hr h0)
    (constant S0 .f32 0x49742400#32)

end Cert.Spec

end
-- ==== Proof.SegPayload.lean ====
/-
  The segment-sum kernel's stored values read at an entry, at the extended reals.

  THE ONE-HOT BLOCK.  Entry (class, row) compares the word of the class (the row coordinate of a [1024,1] index column,
  broadcast along the 4096 rows) with the row's label word (the [1,4096] label row broadcast along the 1024 classes);
  the decided bit is widened to a word, read signed and converted: the real `1` where the words agree and `0` where
  they differ, which is `Cert.Spec.hit` (`onehot_apply`). Narrowing a format changes no extended real.

  THE TWO PRODUCTS.  Each contracts the one-hot block's row axis against a [4096, n] block into the zero block, so its
  entry (class, d) is the sum over the 4096 rows of the one-hot entry times the block's entry (`matmul4_apply` for the
  features, n = 512; `matmul5_apply` for the column of ones, n = 1): the contraction's one-axis index set is re-indexed by
  its coordinate, and the two operand indices are read coordinate by coordinate.

  THE STORED VALUES.  The product gains a leading unit axis and is added to the block carried so far: entry (0, class, d)
  is the carried entry plus the tile's share (`pay4_apply`, `pay5_apply`); the first visit stores zeros
  (`pay1_apply`, `pay2_apply`).
-/
import proofs.«416394_j29111288332476_3_alg».proof.Proof.Gen.KernelIdeal.Skeleton
import proofs.«416394_j29111288332476_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.SegPayload

open Cert.KernelIdeal Cert.KernelIdeal.Gen Idealize.ShloMosaic Idealize.ShloMosaic.ValueIdx

theorem pay1_apply (j : S1x1024x512.Idx) : k0_pay1 (F := Ideal) j = 0 := by
  unfold k0_pay1
  show Ideal.ofBits .f32 0x00000000#32 = 0
  exact Ideal.ofBits_zero_f32

theorem pay2_apply (j : S1x1024x1.Idx) : k0_pay2 (F := Ideal) j = 0 := by
  unfold k0_pay2
  show Ideal.ofBits .f32 0x00000000#32 = 0
  exact Ideal.ofBits_zero_f32

/-- The word of a decided bit, widened and read signed, is the real one or zero. -/
theorem bit_real (l : BitVec 32) (c : Nat) :
    (((IntOp.cmpi .eq (BitVec.ofNat 32 c) l).setWidth 32).toInt : ℝ) = if BitVec.ofNat 32 c = l then (1 : ℝ) else 0 := by
  by_cases h : BitVec.ofNat 32 c = l
  · rw [if_pos h, IntOp.cmpi_eq.2 h]; norm_num
  · rw [if_neg h, eq_zero_of_ne_one (fun h1 => h (IntOp.cmpi_eq.1 h1))]; norm_num

/-- The one-hot block: entry (class, row) is one when the row's label word is the class's word, else zero. -/
theorem onehot_apply (x1 : Vec Ideal S1x4096 .i32) (cls : Fin 1024) (b : Fin 4096) :
    k0_pay3 (F := Ideal) x1 (ix2 cls b) = Cert.Spec.hit (x1 (ix2 0 b)) cls.val := by
  unfold k0_pay3
  rw [truncf_apply, sitofp_apply, extui_apply]
  show ((((IntOp.cmpi .eq _ _).setWidth 32).toInt : ℝ) : EReal) = _
  rw [broadcastTo_apply (iota .tc S1024x1 32 [0] iota_S1024x1_d0_w32) broadcasts_S1024x1_S1024x4096 (ix2 cls b) (ix2 cls 0)
        (fun a => match a with | ⟨0, _⟩ => rfl | ⟨1, _⟩ => rfl),
      broadcastTo_apply _ broadcasts_S1x4096_S1024x4096 (ix2 cls b) (ix2 0 b)
        (fun a => match a with | ⟨0, _⟩ => rfl | ⟨1, _⟩ => rfl),
      shapeCast_self, iota_single_apply]
  show (((( IntOp.cmpi .eq (BitVec.ofNat 32 cls.val) (x1 (ix2 0 b))).setWidth 32).toInt : ℝ) : EReal) = _
  rw [bit_real]
  unfold Cert.Spec.hit
  split <;> simp

theorem lhs4_0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
theorem lhs4_1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
theorem rhs4_0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
theorem rhs4_1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The product into the zero block, read at an entry: the sum over the 4096 rows of the tile. -/
theorem matmul4_apply (A : FVec Ideal S1024x4096 .bf16) (B : FVec Ideal S4096x512 .bf16) (cls : Fin 1024) (d : Fin 512) :
    matmul dot_S1024x4096_S4096x512_S1024x512_1_0_0_1_n_n none A B (constant (F := Ideal) S1024x512 .f32 0x00000000#32) (ix2 cls d)
      = ∑ k : Fin 4096, A (ix2 cls k) * B (ix2 k d) := by
  simp only [matmul]
  rw [Ideal.matmul_constant_zero_apply, ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 cls d) ((contrEquiv1 dot_S1024x4096_S4096x512_S1024x512_1_0_0_1_n_n 4096 rfl rfl).symm k) = ix2 cls k := funext fun a => Fin.ext (by
    match a with
    | ⟨0, _⟩ => exact lhs4_0 _ _
    | ⟨1, _⟩ => exact (lhs4_1 _ _).trans hk)
  have er : dot_S1024x4096_S4096x512_S1024x512_1_0_0_1_n_n.rhsIdx (ix2 cls d) ((contrEquiv1 dot_S1024x4096_S4096x512_S1024x512_1_0_0_1_n_n 4096 rfl rfl).symm k) = ix2 k d := funext fun a => Fin.ext (by
    match a with
    | ⟨0, _⟩ => exact (rhs4_0 _ _).trans hk
    | ⟨1, _⟩ => exact rhs4_1 _ _)
  rw [el, er]

theorem lhs5_0 (i : S1024x1.Idx) (q : dot_S1024x4096_S4096x1_S1024x1_1_0_0_1_n_n.contr.Idx) :
    (dot_S1024x4096_S4096x1_S1024x1_1_0_0_1_n_n.lhsIdx i q 0).val = (i 0).val := by
  unfold DotDims.lhsIdx
  rw [dif_neg (show ¬(0 : Fin S1024x4096.rank) ∈ dot_S1024x4096_S4096x1_S1024x1_1_0_0_1_n_n.lhsBatch by decide), dif_pos (show (0 : Fin S1024x4096.rank) ∈ dot_S1024x4096_S4096x1_S1024x1_1_0_0_1_n_n.lhsNonContracting by decide)]
  rfl
theorem lhs5_1 (i : S1024x1.Idx) (q : dot_S1024x4096_S4096x1_S1024x1_1_0_0_1_n_n.contr.Idx) :
    (dot_S1024x4096_S4096x1_S1024x1_1_0_0_1_n_n.lhsIdx i q 1).val = (q ⟨0, by decide⟩).val :=
  dot_S1024x4096_S4096x1_S1024x1_1_0_0_1_n_n.lhsIdx_val_of_single rfl i q
theorem rhs5_0 (i : S1024x1.Idx) (q : dot_S1024x4096_S4096x1_S1024x1_1_0_0_1_n_n.contr.Idx) :
    (dot_S1024x4096_S4096x1_S1024x1_1_0_0_1_n_n.rhsIdx i q 0).val = (q ⟨0, by decide⟩).val :=
  dot_S1024x4096_S4096x1_S1024x1_1_0_0_1_n_n.rhsIdx_val_of_single rfl i q
theorem rhs5_1 (i : S1024x1.Idx) (q : dot_S1024x4096_S4096x1_S1024x1_1_0_0_1_n_n.contr.Idx) :
    (dot_S1024x4096_S4096x1_S1024x1_1_0_0_1_n_n.rhsIdx i q 1).val = (i 1).val := by
  unfold DotDims.rhsIdx
  rw [dif_neg (show ¬(1 : Fin S4096x1.rank) ∈ dot_S1024x4096_S4096x1_S1024x1_1_0_0_1_n_n.rhsBatch by decide), dif_pos (show (1 : Fin S4096x1.rank) ∈ dot_S1024x4096_S4096x1_S1024x1_1_0_0_1_n_n.rhsNonContracting by decide)]
  rfl

/-- The product into the zero block, read at an entry: the sum over the 4096 rows of the tile. -/
theorem matmul5_apply (A : FVec Ideal S1024x4096 .bf16) (B : FVec Ideal S4096x1 .bf16) (cls : Fin 1024) (d : Fin 1) :
    matmul dot_S1024x4096_S4096x1_S1024x1_1_0_0_1_n_n none A B (constant (F := Ideal) S1024x1 .f32 0x00000000#32) (ix2 cls d)
      = ∑ k : Fin 4096, A (ix2 cls k) * B (ix2 k d) := by
  simp only [matmul]
  rw [Ideal.matmul_constant_zero_apply, ← Equiv.sum_comp (contrEquiv1 dot_S1024x4096_S4096x1_S1024x1_1_0_0_1_n_n 4096 rfl rfl).symm]
  refine Finset.sum_congr rfl fun k _ => ?_
  have hk := contrEquiv1_symm_val dot_S1024x4096_S4096x1_S1024x1_1_0_0_1_n_n 4096 rfl rfl k
  have el : dot_S1024x4096_S4096x1_S1024x1_1_0_0_1_n_n.lhsIdx (ix2 cls d) ((contrEquiv1 dot_S1024x4096_S4096x1_S1024x1_1_0_0_1_n_n 4096 rfl rfl).symm k) = ix2 cls k := funext fun a => Fin.ext (by
    match a with
    | ⟨0, _⟩ => exact lhs5_0 _ _
    | ⟨1, _⟩ => exact (lhs5_1 _ _).trans hk)
  have er : dot_S1024x4096_S4096x1_S1024x1_1_0_0_1_n_n.rhsIdx (ix2 cls d) ((contrEquiv1 dot_S1024x4096_S4096x1_S1024x1_1_0_0_1_n_n 4096 rfl rfl).symm k) = ix2 k d := funext fun a => Fin.ext (by
    match a with
    | ⟨0, _⟩ => exact (rhs5_0 _ _).trans hk
    | ⟨1, _⟩ => exact rhs5_1 _ _)
  rw [el, er]

theorem pay4_apply (x0 : Vec Ideal S4096x512 .f32) (x1 : Vec Ideal S1x4096 .i32) (acc : Vec Ideal S1x1024x512 .f32) (cls : Fin 1024) (d : Fin 512) :
    k0_pay4 (F := Ideal) x0 x1 acc (ix3 0 cls d) = acc (ix3 0 cls d) + ∑ b : Fin 4096, Cert.Spec.hit (x1 (ix2 0 b)) cls.val * x0 (ix2 b d) := by
  unfold k0_pay4
  rw [addf_apply, shapeCast_self, shapeCast_addUnit_apply ![1024, 512]]
  have e : (fun a : Fin 2 => (ix3 (0 : Fin 1) cls d) a.succ) = ix2 cls d := funext fun a => by
    match a with
    | ⟨0, _⟩ => rfl
    | ⟨1, _⟩ => rfl
  rw [e, matmul4_apply]
  refine congrArg (acc (ix3 0 cls d) + ·) (Finset.sum_congr rfl fun b _ => ?_)
  rw [onehot_apply, truncf_apply]

theorem pay5_apply (x1 : Vec Ideal S1x4096 .i32) (acc : Vec Ideal S1x1024x1 .f32) (cls : Fin 1024) :
    k0_pay5 (F := Ideal) x1 acc (ix3 0 cls 0) = acc (ix3 0 cls 0) + ∑ b : Fin 4096, Cert.Spec.hit (x1 (ix2 0 b)) cls.val * Cert.Spec.one16 := by
  unfold k0_pay5
  rw [addf_apply, shapeCast_self, shapeCast_addUnit_apply ![1024, 1]]
  have e : (fun a : Fin 2 => (ix3 (0 : Fin 1) cls (0 : Fin 1)) a.succ) = ix2 cls (0 : Fin 1) := funext fun a => by
    match a with
    | ⟨0, _⟩ => rfl
    | ⟨1, _⟩ => rfl
  rw [e, matmul5_apply]
  refine congrArg (acc (ix3 0 cls 0) + ·) (Finset.sum_congr rfl fun b _ => ?_)
  rw [onehot_apply, broadcast_apply]
  rfl

end Cert.KernelIdeal.SegPayload

end
-- ==== Proof.SegRegion.lean ====
/-
  The segment-sum region: what its two result arrays hold after the 32 grid points.

  THE RUN.  Point `t = 16 h + i` of the grid (2, 16) reads tile `t` of the batch: the 4096 feature rows `4096 t + b` (a
  [4096, 512] block) and their 4096 label words (a [1, 4096] block). The two result blocks ([1, 1024, 512] sums,
  [1, 1024, 1] counts) belong to half `h` and are carried across the half's 16 points: at `i = 0` they are set to zero,
  and at every point the body adds, to entry (0, cls, d), the sum over the tile's rows `b` of `hit(label b, cls)` times
  the feature entry (b, d) — resp. times the bf16 word of one — which is tile `t`'s share `tileSum` (`tileCnt`).
  The blocks are written back after the last point of each half, into rows `h` of the two result arrays.

  THE PROOF.  (1) What each of the two cases of the body (first point of a half; a later point) leaves in each
  block is its stored value as a function of the input blocks and of the block carried so far (`out_A_2` … `out_B_3`:
  the body's one covering store per block, after the reset's store in the first case). (2) A block of an input window
  read at an entry is the array read at tile `t`'s row (`xblk_apply`, `lblk_apply`: block index times block size plus
  the coordinate inside, the index maps decided once over the grid, `idx_facts`), so the stored value's one-hot product
  is the tile's share (`tile_eq`, `tilecnt_eq`). (3) By induction on the point, after point `n` the carried block holds
  the shares of tiles `16 (n / 16) … n` added (`sums_inv`, `cnts_inv`); at `n = 16 h + 15` that is the half's sum
  (`sums_at_flush`, `cnts_at_flush`). (4) The write-back at such a point writes block `h` of the function
  `(h, cls, d) ↦ halfSum h cls d` (`sums_flushed`, `cnts_flushed`), entry (h, cls, d) lies in that block
  (`mem_blk2`, `mem_blk3`), and an entry a flushed block covers reads the function after the run.
-/
import proofs.«416394_j29111288332476_3_alg».proof.Proof.Gen.KernelIdeal.Frame
import proofs.«416394_j29111288332476_3_alg».proof.Proof.Spec
import proofs.«416394_j29111288332476_3_alg».proof.Proof.SegPayload
import Idealize.ShloMosaic.Lib.Pipeline.Value
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.SegRegion
open Cert.KernelIdeal Cert.KernelIdeal.Gen

/-! ## What each case of the body leaves in each result block -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A LATER POINT of a half: the sums block holding `xo2` is left at `xo2` plus the one-hot product of the label block
    `x1` and the feature block `x0` — the block's one covering store, whose loads read the whole buffers. -/
theorem out_B_2 (c : Dev nD) (i : grid0.Coords) (a2 : Memref sig .tc .vmem S4096x512 .f32) (h2 : a2.IsWhole)
    (a3 : Memref sig .tc .vmem S1x4096 .i32) (h3 : a3.IsWhole) (a4 : Memref sig .tc .vmem S1x1024x512 .f32) (h4 : a4.IsWhole)
    (a5 : Memref sig .tc .vmem S1x1024x1 .f32) (h5 : a5.IsWhole) (hc : ¬cond0_0 i)
    (x0 : Vec F S4096x512 .f32) (x1 : Vec F S1x4096 .i32) (xo2 : Vec F S1x1024x512 .f32) (xo3 : Vec F S1x1024x1 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S4096x512) hz2,
    View.ld_unit_zero (S := S1x4096) hz2, View.ld_unit_zero (S := S1x1024x512) hz3]

/-- A later point: the counts block holding `xo3` is left at `xo3` plus the one-hot product with the column of ones. -/
theorem out_B_3 (c : Dev nD) (i : grid0.Coords) (a2 : Memref sig .tc .vmem S4096x512 .f32) (h2 : a2.IsWhole)
    (a3 : Memref sig .tc .vmem S1x4096 .i32) (h3 : a3.IsWhole) (a4 : Memref sig .tc .vmem S1x1024x512 .f32) (h4 : a4.IsWhole)
    (a5 : Memref sig .tc .vmem S1x1024x1 .f32) (h5 : a5.IsWhole) (hc : ¬cond0_0 i)
    (x0 : Vec F S4096x512 .f32) (x1 : Vec F S1x4096 .i32) (xo2 : Vec F S1x1024x512 .f32) (xo3 : Vec F S1x1024x1 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread, View.ld_unit_zero (S := S4096x512) hz2,
    View.ld_unit_zero (S := S1x4096) hz2, View.ld_unit_zero (S := S1x1024x1) hz3]

/-- THE FIRST POINT of a half: the sums block is set to the zero block, read back, and left at zero plus the one-hot
    product. -/
theorem out_A_2 (c : Dev nD) (i : grid0.Coords) (a2 : Memref sig .tc .vmem S4096x512 .f32) (h2 : a2.IsWhole)
    (a3 : Memref sig .tc .vmem S1x4096 .i32) (h3 : a3.IsWhole) (a4 : Memref sig .tc .vmem S1x1024x512 .f32) (h4 : a4.IsWhole)
    (a5 : Memref sig .tc .vmem S1x1024x1 .f32) (h5 : a5.IsWhole) (hc : cond0_0 i)
    (x0 : Vec F S4096x512 .f32) (x1 : Vec F S1x4096 .i32) :
    out0_A_2 c i a2 h2 a3 h3 a4 h4 a5 h5 hc x0 x1 = k0_pay4 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1024x512) hz3]
  simp only [View.readAt_eq_ld, h2.read_unread, h3.read_unread, View.ld_unit_zero (S := S4096x512) hz2,
    View.ld_unit_zero (S := S1x4096) hz2, View.readCov_unit_zero (S := S1x1024x512) _ hz3]

/-- The first point: the counts block likewise, from the zero block. -/
theorem out_A_3 (c : Dev nD) (i : grid0.Coords) (a2 : Memref sig .tc .vmem S4096x512 .f32) (h2 : a2.IsWhole)
    (a3 : Memref sig .tc .vmem S1x4096 .i32) (h3 : a3.IsWhole) (a4 : Memref sig .tc .vmem S1x1024x512 .f32) (h4 : a4.IsWhole)
    (a5 : Memref sig .tc .vmem S1x1024x1 .f32) (h5 : a5.IsWhole) (hc : cond0_0 i)
    (x0 : Vec F S4096x512 .f32) (x1 : Vec F S1x4096 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1024x1) hz3]
  simp only [View.readAt_eq_ld, h2.read_unread, h3.read_unread, View.ld_unit_zero (S := S4096x512) hz2,
    View.ld_unit_zero (S := S1x4096) hz2, View.readCov_unit_zero (S := S1x1024x1) _ hz3]

end Pieces

/-! ## The input blocks read at an entry -/

variable (V : (c : Dev nD) → (b : Ref sig .tc) → Buf (Elt Ideal) ((c : Thread nD τ).loc b))

/-- The block of window 0 at a point (a tile's 4096 feature rows) and of window 1 (the tile's 4096 label words). -/
abbrev xblk (c : Dev nD) (t : Fin cfg0.N) : Vec Ideal S4096x512 .f32 := iblk0 V c 0 t
abbrev lblk (c : Dev nD) (t : Fin cfg0.N) : Vec Ideal S1x4096 .i32 := iblk0 V c 1 t

theorem N32 : cfg0.N = 32 := N_0

theorem lt32 (t : Fin cfg0.N) : t.val < 32 := lt_of_lt_of_eq t.isLt N32

/-- The four index maps at point `t`: the input blocks are tile `t`'s, the result blocks half `t / 16`'s. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- Entry (b, d) of the feature block at point `t` is entry (4096 t + b, d) of the feature array. -/
theorem xblk_apply (c : Dev nD) (t : Fin cfg0.N) (b : Fin 4096) (d : Fin 512) (r : Fin 131072)
    (hr : r.val = 4096 * t.val + b.val) :
    xblk V c t (ix2 b d) = V c main_arg0 (ix2 r d) := by
  obtain ⟨e0, e1, -⟩ := idx_facts t
  unfold xblk iblk0
  rw [View.read_apply]
  show V c main_arg0 _ = V c main_arg0 _
  refine congrArg (V c main_arg0) (funext fun a => Fin.ext ?_)
  match a with
  | ⟨0, _⟩ => show win0_0.index t 0 * 4096 + 1 * b.val = r.val; rw [e0, hr]; omega
  | ⟨1, _⟩ => show win0_0.index t 1 * 512 + 1 * d.val = d.val; rw [e1]; omega

/-- Entry (0, b) of the label block at point `t` is the label word of row 4096 t + b. -/
theorem lblk_apply (c : Dev nD) (t : Fin cfg0.N) (b : Fin 4096) (r : Fin 131072)
    (hr : r.val = 4096 * t.val + b.val) :
    lblk V c t (ix2 0 b) = V c main_v0 (ix2 0 r) := by
  obtain ⟨-, -, e0, e1, -⟩ := idx_facts t
  unfold lblk iblk0
  rw [View.read_apply]
  show V c main_v0 _ = V c main_v0 _
  refine congrArg (V c main_v0) (funext fun a => Fin.ext ?_)
  match a with
  | ⟨0, _⟩ => show win0_1.index t 0 * 1 + 1 * 0 = 0; rw [e0]
  | ⟨1, _⟩ => show win0_1.index t 1 * 4096 + 1 * b.val = r.val; rw [e1, hr]; omega

/-! ## One point's step -/

/-- Tile `n`'s share of class `cls`'s feature sum in column `d`, as a function of every natural (zero past the grid). -/
def tsum (c : Dev nD) (cls : Fin 1024) (d : Fin 512) (n : Nat) : EReal :=
  if h : n < 32 then Cert.Spec.tileSum (V c main_arg0) (fun r => V c main_v0 (ix2 0 r)) ⟨n, h⟩ cls d else 0

/-- Tile `n`'s share of class `cls`'s count, likewise. -/
def tcnt (c : Dev nD) (cls : Fin 1024) (n : Nat) : EReal :=
  if h : n < 32 then Cert.Spec.tileCnt (fun r => V c main_v0 (ix2 0 r)) ⟨n, h⟩ cls else 0

/-- The one-hot product of the blocks at point `t` is tile `t`'s share. -/
theorem tile_eq (c : Dev nD) (t : Fin cfg0.N) (cls : Fin 1024) (d : Fin 512) :
    ∑ b : Fin 4096, Cert.Spec.hit (lblk V c t (ix2 0 b)) cls.val * xblk V c t (ix2 b d) = tsum V c cls d t.val := by
  unfold tsum
  rw [dif_pos (lt32 t)]
  unfold Cert.Spec.tileSum
  refine Finset.sum_congr rfl fun b _ => ?_
  rw [xblk_apply V c t b d (Cert.Spec.tileRow ⟨t.val, lt32 t⟩ b) rfl, lblk_apply V c t b (Cert.Spec.tileRow ⟨t.val, lt32 t⟩ b) rfl]

theorem tilecnt_eq (c : Dev nD) (t : Fin cfg0.N) (cls : Fin 1024) :
    ∑ b : Fin 4096, Cert.Spec.hit (lblk V c t (ix2 0 b)) cls.val * Cert.Spec.one16 = tcnt V c cls t.val := by
  unfold tcnt
  rw [dif_pos (lt32 t)]
  unfold Cert.Spec.tileCnt
  refine Finset.sum_congr rfl fun b _ => ?_
  rw [lblk_apply V c t b (Cert.Spec.tileRow ⟨t.val, lt32 t⟩ b) rfl]

/-- At the first point of a half the carried sums block is the tile's share. -/
theorem sums_reset (c : Dev nD) (t : Fin cfg0.N) (h0 : t.val % 16 = 0) (cls : Fin 1024) (d : Fin 512) :
    (outsAt0 V c t.val t.isLt).1 (ix3 0 cls d) = tsum V c cls d t.val := by
  rw [outsAt0_A V c t h0]
  dsimp only
  refine (congrFun (out_A_2 (F := Ideal) c (grid0.coords t) (ms0_0 t) (hs0_0 t) (ms0_1 t) (hs0_1 t) (ms0_2 t) (hs0_2 t)
    (ms0_3 t) (hs0_3 t) ((hcond0_0 t).mpr h0) (xblk V c t) (lblk V c t)) (ix3 0 cls d)).trans ?_
  refine (SegPayload.pay4_apply (xblk V c t) (lblk V c t) (k0_pay1 (F := Ideal)) cls d).trans ?_
  rw [SegPayload.pay1_apply, zero_add]
  exact tile_eq V c t cls d

/-- At a later point it is what the point before left plus the tile's share. -/
theorem sums_step (c : Dev nD) (t : Fin cfg0.N) (h0 : ¬t.val % 16 = 0) (cls : Fin 1024) (d : Fin 512) :
    (outsAt0 V c t.val t.isLt).1 (ix3 0 cls d)
      = (outsAt0 V c (t.val - 1) (Nat.lt_of_le_of_lt (Nat.sub_le _ _) t.isLt)).1 (ix3 0 cls d) + tsum V c cls d t.val := by
  rw [outsAt0_B V c t h0]
  dsimp only
  refine (congrFun (out_B_2 (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 0 cls d)).trans ?_
  refine (SegPayload.pay4_apply (xblk V c t) (lblk V c t) _ cls d).trans ?_
  rw [tile_eq V c t cls d]

theorem cnts_reset (c : Dev nD) (t : Fin cfg0.N) (h0 : t.val % 16 = 0) (cls : Fin 1024) :
    (outsAt0 V c t.val t.isLt).2 (ix3 0 cls 0) = tcnt V c cls t.val := by
  rw [outsAt0_A V c t h0]
  dsimp only
  refine (congrFun (out_A_3 (F := Ideal) c (grid0.coords t) (ms0_0 t) (hs0_0 t) (ms0_1 t) (hs0_1 t) (ms0_2 t) (hs0_2 t)
    (ms0_3 t) (hs0_3 t) ((hcond0_0 t).mpr h0) (xblk V c t) (lblk V c t)) (ix3 0 cls 0)).trans ?_
  refine (SegPayload.pay5_apply (lblk V c t) (k0_pay2 (F := Ideal)) cls).trans ?_
  rw [SegPayload.pay2_apply, zero_add]
  exact tilecnt_eq V c t cls

theorem cnts_step (c : Dev nD) (t : Fin cfg0.N) (h0 : ¬t.val % 16 = 0) (cls : Fin 1024) :
    (outsAt0 V c t.val t.isLt).2 (ix3 0 cls 0)
      = (outsAt0 V c (t.val - 1) (Nat.lt_of_le_of_lt (Nat.sub_le _ _) t.isLt)).2 (ix3 0 cls 0) + tcnt V c cls t.val := by
  rw [outsAt0_B V c t h0]
  dsimp only
  refine (congrFun (out_B_3 (F := Ideal) c (grid0.coords t) (ms0_0 t) (hs0_0 t) (ms0_1 t) (hs0_1 t) (ms0_2 t) (hs0_2 t)
    (ms0_3 t) (hs0_3 t) (fun h => h0 ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 0 cls 0)).trans ?_
  refine (SegPayload.pay5_apply (lblk V c t) _ cls).trans ?_
  rw [tilecnt_eq V c t cls]

/-! ## The running sum, by induction on the point -/

/-- THE RUNNING SUM. After point `n` (tile `n % 16` of half `n / 16`) the carried sums block holds, at class `cls` and
    column `d`, the shares of the half's tiles up to `n` added. -/
theorem sums_inv (c : Dev nD) (cls : Fin 1024) (d : Fin 512) : ∀ (n : Nat) (hn : n < cfg0.N),
    (outsAt0 V c n hn).1 (ix3 0 cls d) = ∑ s ∈ Finset.range (n % 16 + 1), tsum V c cls d (16 * (n / 16) + s)
  | 0, hn => by
    refine (sums_reset V c ⟨0, hn⟩ rfl cls d).trans ?_
    rw [Finset.sum_range_one]
  | n + 1, hn => by
    by_cases h0 : (n + 1) % 16 = 0
    · refine (sums_reset V c ⟨n + 1, hn⟩ h0 cls d).trans ?_
      rw [h0, Finset.sum_range_one]
      exact congrArg (tsum V c cls d) (by show n + 1 = 16 * ((n + 1) / 16) + 0; omega)
    · refine (sums_step V c ⟨n + 1, hn⟩ h0 cls d).trans ?_
      show (outsAt0 V c n (Nat.lt_of_succ_lt hn)).1 (ix3 0 cls d) + tsum V c cls d (n + 1) = _
      rw [sums_inv c cls d n (Nat.lt_of_succ_lt hn)]
      have e1 : (n + 1) % 16 = n % 16 + 1 := by omega
      have e2 : (n + 1) / 16 = n / 16 := by omega
      rw [e1, e2, Finset.sum_range_succ _ (n % 16 + 1)]
      exact congrArg (_ + tsum V c cls d ·) (by omega)

theorem cnts_inv (c : Dev nD) (cls : Fin 1024) : ∀ (n : Nat) (hn : n < cfg0.N),
    (outsAt0 V c n hn).2 (ix3 0 cls 0) = ∑ s ∈ Finset.range (n % 16 + 1), tcnt V c cls (16 * (n / 16) + s)
  | 0, hn => by
    refine (cnts_reset V c ⟨0, hn⟩ rfl cls).trans ?_
    rw [Finset.sum_range_one]
  | n + 1, hn => by
    by_cases h0 : (n + 1) % 16 = 0
    · refine (cnts_reset V c ⟨n + 1, hn⟩ h0 cls).trans ?_
      rw [h0, Finset.sum_range_one]
      exact congrArg (tcnt V c cls) (by show n + 1 = 16 * ((n + 1) / 16) + 0; omega)
    · refine (cnts_step V c ⟨n + 1, hn⟩ h0 cls).trans ?_
      show (outsAt0 V c n (Nat.lt_of_succ_lt hn)).2 (ix3 0 cls 0) + tcnt V c cls (n + 1) = _
      rw [cnts_inv c cls n (Nat.lt_of_succ_lt hn)]
      have e1 : (n + 1) % 16 = n % 16 + 1 := by omega
      have e2 : (n + 1) / 16 = n / 16 := by omega
      rw [e1, e2, Finset.sum_range_succ _ (n % 16 + 1)]
      exact congrArg (_ + tcnt V c cls ·) (by omega)

/-- At the last point of a half the block holds the half's sixteen shares added. -/
theorem sums_at_flush (c : Dev nD) (t : Fin cfg0.N) (h15 : t.val % 16 = 15) (cls : Fin 1024) (d : Fin 512) :
    (outsAt0 V c t.val t.isLt).1 (ix3 0 cls d)
      = Cert.Spec.halfSum (V c main_arg0) (fun n => V c main_v0 (ix2 0 n)) ⟨t.val / 16, by have := lt32 t; omega⟩ cls d := by
  rw [sums_inv V c cls d t.val t.isLt, h15, Finset.sum_range]
  unfold Cert.Spec.halfSum
  refine Finset.sum_congr rfl fun i _ => ?_
  unfold tsum
  rw [dif_pos (by have := lt32 t; have := i.isLt; omega)]
  rfl

theorem cnts_at_flush (c : Dev nD) (t : Fin cfg0.N) (h15 : t.val % 16 = 15) (cls : Fin 1024) :
    (outsAt0 V c t.val t.isLt).2 (ix3 0 cls 0)
      = Cert.Spec.halfCnt (fun n => V c main_v0 (ix2 0 n)) ⟨t.val / 16, by have := lt32 t; omega⟩ cls := by
  rw [cnts_inv V c cls t.val t.isLt, h15, Finset.sum_range]
  unfold Cert.Spec.halfCnt
  refine Finset.sum_congr rfl fun i _ => ?_
  unfold tcnt
  rw [dif_pos (by have := lt32 t; have := i.isLt; omega)]
  rfl

/-! ## The write-back, and the arrays after the run -/

theorem halfSum_congr (feat : (⟨2, ![131072, 512]⟩ : Shape).Idx → EReal) (lbl : Fin 131072 → BitVec 32)
    {h h' : Fin 2} {k k' : Fin 1024} {d d' : Fin 512} (eh : h.val = h'.val) (ek : k.val = k'.val) (ed : d.val = d'.val) :
    Cert.Spec.halfSum feat lbl h k d = Cert.Spec.halfSum feat lbl h' k' d' := by
  obtain rfl := Fin.ext eh; obtain rfl := Fin.ext ek; obtain rfl := Fin.ext ed; rfl

theorem halfCnt_congr (lbl : Fin 131072 → BitVec 32)
    {h h' : Fin 2} {k k' : Fin 1024} (eh : h.val = h'.val) (ek : k.val = k'.val) :
    Cert.Spec.halfCnt lbl h k = Cert.Spec.halfCnt lbl h' k' := by
  obtain rfl := Fin.ext eh; obtain rfl := Fin.ext ek; rfl

/-- What the sums array ends holding: at `(h, cls, d)` half `h`'s sum for class `cls` in column `d`. -/
abbrev sumsG (c : Dev nD) : Buf (Elt Ideal) ((c : Thread nD τ).loc main_v1_0) :=
  fun i => Cert.Spec.halfSum (V c main_arg0) (fun n => V c main_v0 (ix2 0 n))
    ⟨(i 0).val, (i 0).isLt⟩ ⟨(i 1).val, (i 1).isLt⟩ ⟨(i 2).val, (i 2).isLt⟩

/-- What the counts array ends holding. -/
abbrev cntsG (c : Dev nD) : Buf (Elt Ideal) ((c : Thread nD τ).loc main_v1_1) :=
  fun i => Cert.Spec.halfCnt (fun n => V c main_v0 (ix2 0 n)) ⟨(i 0).val, (i 0).isLt⟩ ⟨(i 1).val, (i 1).isLt⟩

/-- The write-back at the last point of a half writes that half's block of the sums. -/
theorem sums_flushed (c : Dev nD) (t : Fin cfg0.N) (hf : (cfg0.win 2).flush t = true) :
    (dat0 V c).flushed 2 t = ((cfg0.win 2).blk t).view.read (Elt Ideal) (sumsG V c) := by
  have h15 : t.val % 16 = 15 := (flush0_2 t).mp hf
  obtain ⟨-, -, -, -, e0, e1, e2, -⟩ := idx_facts t
  show (cfg0.win 2).cut (grid0.coords t) ((dat0 V c).after 2 t) = _
  rw [after0_2]
  funext j
  obtain ⟨p, q, r, rfl⟩ : ∃ (p : Fin 1) (q : Fin 1024) (r : Fin 512), j = ix3 p q r := ⟨j 0, j 1, j 2, eq_ix3 j⟩
  obtain rfl : p = 0 := Fin.ext (by omega)
  rw [View.read_apply]
  have hl : (cfg0.win 2).cut (grid0.coords t) (outsAt0 V c t.val t.isLt).1 (ix3 0 q r)
      = (outsAt0 V c t.val t.isLt).1 (ix3 0 q r) :=
    congrArg (outsAt0 V c t.val t.isLt).1 (funext fun a => Fin.ext (by
      match a with
      | ⟨0, _⟩ => rfl
      | ⟨1, _⟩ => rfl
      | ⟨2, _⟩ => rfl))
  refine hl.trans ((sums_at_flush V c t h15 q r).trans ?_)
  show _ = sumsG V c (((cfg0.win 2).blk t).view.emb (ix3 0 q r))
  refine halfSum_congr _ _ ?_ ?_ ?_
  · show t.val / 16 = win0_2.index t 0 * 1 + 1 * 0; rw [e0]; omega
  · show q.val = win0_2.index t 1 * 1024 + 1 * q.val; rw [e1]; omega
  · show r.val = win0_2.index t 2 * 512 + 1 * r.val; rw [e2]; omega

theorem cnts_flushed (c : Dev nD) (t : Fin cfg0.N) (hf : (cfg0.win 3).flush t = true) :
    (dat0 V c).flushed 3 t = ((cfg0.win 3).blk t).view.read (Elt Ideal) (cntsG V c) := by
  have h15 : t.val % 16 = 15 := (flush0_3 t).mp hf
  obtain ⟨-, -, -, -, -, -, -, e0, e1, e2⟩ := idx_facts t
  show (cfg0.win 3).cut (grid0.coords t) ((dat0 V c).after 3 t) = _
  rw [after0_3]
  funext j
  obtain ⟨p, q, r, rfl⟩ : ∃ (p : Fin 1) (q : Fin 1024) (r : Fin 1), j = ix3 p q r := ⟨j 0, j 1, j 2, eq_ix3 j⟩
  obtain rfl : p = 0 := Fin.ext (by omega)
  obtain rfl : r = 0 := Fin.ext (by omega)
  rw [View.read_apply]
  have hl : (cfg0.win 3).cut (grid0.coords t) (outsAt0 V c t.val t.isLt).2 (ix3 0 q 0)
      = (outsAt0 V c t.val t.isLt).2 (ix3 0 q 0) :=
    congrArg (outsAt0 V c t.val t.isLt).2 (funext fun a => Fin.ext (by
      match a with
      | ⟨0, _⟩ => rfl
      | ⟨1, _⟩ => rfl
      | ⟨2, _⟩ => rfl))
  refine hl.trans ((cnts_at_flush V c t h15 q).trans ?_)
  show _ = cntsG V c (((cfg0.win 3).blk t).view.emb (ix3 0 q 0))
  refine halfCnt_congr _ ?_ ?_
  · show t.val / 16 = win0_3.index t 0 * 1 + 1 * 0; rw [e0]; omega
  · show q.val = win0_3.index t 1 * 1024 + 1 * q.val; rw [e1]; omega

/-- An index of the sums array lies in point `t`'s block iff each coordinate is in the block's range. -/
theorem mem_blk2 (t : Fin cfg0.N) (i : S2x1024x512.Idx) :
    i ∈ ((cfg0.win 2).blk t).view.set ↔ ∀ a : Fin 3, win0_2.index t a * S1x1024x512.size a ≤ (i a).val
      ∧ (i a).val < win0_2.index t a * S1x1024x512.size a + S1x1024x512.size a := by
  show i ∈ ((View.whole main_v1_0).slice (win0_2.rect t)).set ↔ _
  rw [View.set_slice_whole, Rect.mem_set_unit]
  exact Iff.rfl

theorem mem_blk3 (t : Fin cfg0.N) (i : S2x1024x1.Idx) :
    i ∈ ((cfg0.win 3).blk t).view.set ↔ ∀ a : Fin 3, win0_3.index t a * S1x1024x1.size a ≤ (i a).val
      ∧ (i a).val < win0_3.index t a * S1x1024x1.size a + S1x1024x1.size a := by
  show i ∈ ((View.whole main_v1_1).slice (win0_3.rect t)).set ↔ _
  rw [View.set_slice_whole, Rect.mem_set_unit]
  exact Iff.rfl

/-- Half `h` of the sums array, class `cls`, column `d`: the 16 tiles' shares of that half added. -/
theorem sums_final (c : Dev nD) (h : Fin 2) (cls : Fin 1024) (d : Fin 512) :
    (dat0 (F := Ideal) V c).arrAt 2 cfg0.N (ix3 h cls d)
      = Cert.Spec.halfSum (V c main_arg0) (fun n => V c main_v0 (ix2 0 n)) h cls d := by
  have hlt : 16 * h.val + 15 < cfg0.N := by rw [N32]; have := h.isLt; omega
  have hm : (⟨16 * h.val + 15, hlt⟩ : Fin cfg0.N).val % 16 = 15 := by show (16 * h.val + 15) % 16 = 15; omega
  refine ((dat0 V c).arrAt_apply_of_mem 2 (sumsG V c) (sums_flushed V c) cfg0.N ⟨16 * h.val + 15, hlt⟩ (ix3 h cls d) hlt
    ((flush0_2 _).mpr hm) ?_).trans rfl
  rw [mem_blk2]
  obtain ⟨-, -, -, -, e0, e1, e2, -⟩ := idx_facts ⟨16 * h.val + 15, hlt⟩
  intro a
  match a with
  | ⟨0, _⟩ =>
    show win0_2.index ⟨16 * h.val + 15, hlt⟩ 0 * 1 ≤ h.val ∧ h.val < win0_2.index ⟨16 * h.val + 15, hlt⟩ 0 * 1 + 1
    rw [e0]; show (16 * h.val + 15) / 16 * 1 ≤ h.val ∧ h.val < (16 * h.val + 15) / 16 * 1 + 1; omega
  | ⟨1, _⟩ =>
    show win0_2.index ⟨16 * h.val + 15, hlt⟩ 1 * 1024 ≤ cls.val ∧ cls.val < win0_2.index ⟨16 * h.val + 15, hlt⟩ 1 * 1024 + 1024
    rw [e1]; omega
  | ⟨2, _⟩ =>
    show win0_2.index ⟨16 * h.val + 15, hlt⟩ 2 * 512 ≤ d.val ∧ d.val < win0_2.index ⟨16 * h.val + 15, hlt⟩ 2 * 512 + 512
    rw [e2]; omega

/-- The counts array likewise. -/
theorem counts_final (c : Dev nD) (h : Fin 2) (cls : Fin 1024) :
    (dat0 (F := Ideal) V c).arrAt 3 cfg0.N (ix3 h cls 0)
      = Cert.Spec.halfCnt (fun n => V c main_v0 (ix2 0 n)) h cls := by
  have hlt : 16 * h.val + 15 < cfg0.N := by rw [N32]; have := h.isLt; omega
  have hm : (⟨16 * h.val + 15, hlt⟩ : Fin cfg0.N).val % 16 = 15 := by show (16 * h.val + 15) % 16 = 15; omega
  refine ((dat0 V c).arrAt_apply_of_mem 3 (cntsG V c) (cnts_flushed V c) cfg0.N ⟨16 * h.val + 15, hlt⟩ (ix3 h cls 0) hlt
    ((flush0_3 _).mpr hm) ?_).trans rfl
  rw [mem_blk3]
  obtain ⟨-, -, -, -, -, -, -, e0, e1, e2⟩ := idx_facts ⟨16 * h.val + 15, hlt⟩
  intro a
  match a with
  | ⟨0, _⟩ =>
    show win0_3.index ⟨16 * h.val + 15, hlt⟩ 0 * 1 ≤ h.val ∧ h.val < win0_3.index ⟨16 * h.val + 15, hlt⟩ 0 * 1 + 1
    rw [e0]; show (16 * h.val + 15) / 16 * 1 ≤ h.val ∧ h.val < (16 * h.val + 15) / 16 * 1 + 1; omega
  | ⟨1, _⟩ =>
    show win0_3.index ⟨16 * h.val + 15, hlt⟩ 1 * 1024 ≤ cls.val ∧ cls.val < win0_3.index ⟨16 * h.val + 15, hlt⟩ 1 * 1024 + 1024
    rw [e1]; omega
  | ⟨2, _⟩ =>
    show win0_3.index ⟨16 * h.val + 15, hlt⟩ 2 * 1 ≤ 0 ∧ 0 < win0_3.index ⟨16 * h.val + 15, hlt⟩ 2 * 1 + 1
    rw [e2]; omega

end Cert.KernelIdeal.SegRegion
end
-- ==== Proof.DistRegion.lean ====
/-
  The distance region: what its result array holds after its two grid points.

  The region reads a stack of two blocks of 1024 rows of 512 entries and writes a stack of two 1024 × 1024 tables;
  grid point `s` reads member `s` of the one and writes member `s` of the other. For rows `x`, `y` of a member write
  `sq x = ∑ x_k²` and `dot x y = ∑ x_k y_k`. Entry `(i, j)` of the table a point stores is the guarded root of
  `max (sq x_i + sq x_j - 2 (dot x_i x_j)) 0`, with that clamped square replaced by `0` where `i = j`:
    * the product of the block with itself, contracted along the rows' entries into a zero table, gives `dot x_i x_j`;
    * the sum along each row of the entrywise square gives the vector of `sq x_i`; stood up as a column and repeated
      along the rows it gives `sq x_i` at `(i, j)`, laid down as a row and repeated down the columns `sq x_j`;
    * the table of row numbers and the table of column numbers hold the same word exactly on the diagonal;
    * the root is taken where the square is positive (of `1` elsewhere, and then discarded for `0`).
  First each layout step, each sum and the diagonal test are read at an entry, then the stored table (`stored_apply`).
  Then the array: a block of either window sits at its grid point's member and at the origin of the other two axes
  (`idx_facts`), so what a point writes back is its member of one function of the whole stack (`flushed_eq`), the two
  points' blocks cover the result (`covered`), and the result is that function (`allPairs_final`, `dist_final`).
-/
import proofs.«416394_j29111288332476_3_alg».proof.Proof.Gen.KernelIdeal.Frame
import proofs.«416394_j29111288332476_3_alg».proof.Proof.Spec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.DistRegion
open Cert.KernelIdeal Cert.KernelIdeal.Gen

/-! ## The layout steps of the block, each read at an entry -/

section Layout
variable {α : Type}

/-- A vector of 1024 entries stood up as a column: the column's entry `(i, 0)` is the vector's entry `i`. -/
theorem column_apply (v : S1024.Idx → α) (i : Fin 1024) (u : Fin 1) :
    shapeCast S1024x1 v shapeCasts_S1024_S1024x1 (ix2 i u) = v (ix1 i) :=
  shapeCast_apply v shapeCasts_S1024_S1024x1 _ _ (by
    have hu : u.val = 0 := by omega
    rw [Shape.rowMajor_val_two, Shape.rowMajor_val_one]
    show i.val = i.val * 1 + u.val
    rw [hu, Nat.mul_one, Nat.add_zero])

/-- A column laid down as a row: the row's entry `(0, j)` is the column's entry `(j, 0)`. -/
theorem laid_apply (v : S1024x1.Idx → α) (u : Fin 1) (j : Fin 1024) :
    transpose S1x1024 [1, 0] v transposes_S1024x1_p1_0_S1x1024 (ix2 u j) = v (ix2 j u) :=
  transpose_ix2_apply v transposes_S1024x1_p1_0_S1x1024 u j

/-- A column repeated along every row: entry `(i, j)` is the column's entry `(i, 0)`. -/
theorem alongRows_apply (v : S1024x1.Idx → α) (i j : Fin 1024) :
    broadcastTo S1024x1024 v broadcasts_S1024x1_S1024x1024 (ix2 i j) = v (ix2 i (0 : Fin 1)) := by
  refine broadcastTo_apply v broadcasts_S1024x1_S1024x1024 (ix2 i j) (ix2 i (0 : Fin 1)) fun ax => ?_
  match ax with
  | ⟨0, _⟩ => rfl
  | ⟨1, _⟩ => rfl

/-- A row repeated down every column: entry `(i, j)` is the row's entry `(0, j)`. -/
theorem downColumns_apply (v : S1x1024.Idx → α) (i j : Fin 1024) :
    broadcastTo S1024x1024 v broadcasts_S1x1024_S1024x1024 (ix2 i j) = v (ix2 (0 : Fin 1) j) :=
  broadcastTo_1b_ab_apply v broadcasts_S1x1024_S1024x1024 i j

end Layout

/-! ## The two sums of the block -/

/-- The sum along a row of the squares of its entries. -/
theorem squares_apply (v1 : FVec Ideal S1024x512 .f32) (i : Fin 1024) :
    multiReduction .add [1] S1024 (mulf v1 v1) 0x00000000#32 reduces_S1024x512_S1024 (.inl rfl) rfl (ix1 i)
      = Cert.Spec.sq (fun k => v1 (ix2 i k)) := by
  refine (Ideal.multiReduction_add_single (mulf v1 v1) 0x00000000#32 reduces_S1024x512_S1024 (.inl rfl) rfl (ix1 i)).trans ?_
  unfold Cert.Spec.sq
  refine Finset.sum_congr rfl fun k _ => ?_
  have e : reduces_S1024x512_S1024.lift (ix1 i) k = ix2 i k :=
    funext fun a => Fin.ext (by match a with | ⟨0, _⟩ => rfl | ⟨1, _⟩ => rfl)
  rw [e]
  rfl

/-- Where the product's two operands are read for entry `o` of the result and place `q` of the contraction: the left at
    row `o 0`, the right at row `o 1`, both at entry `q` of the row. -/
theorem lhs_gram_0 (o : S1024x1024.Idx) (q : dot_S1024x512_S1024x512_S1024x1024_1_1_0_0_n_n.contr.Idx) :
    (dot_S1024x512_S1024x512_S1024x1024_1_1_0_0_n_n.lhsIdx o q 0).val = (o 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_gram_1 (o : S1024x1024.Idx) (q : dot_S1024x512_S1024x512_S1024x1024_1_1_0_0_n_n.contr.Idx) :
    (dot_S1024x512_S1024x512_S1024x1024_1_1_0_0_n_n.lhsIdx o q 1).val = (q ⟨0, by decide⟩).val :=
  dot_S1024x512_S1024x512_S1024x1024_1_1_0_0_n_n.lhsIdx_val_of_single rfl o q
theorem rhs_gram_0 (o : S1024x1024.Idx) (q : dot_S1024x512_S1024x512_S1024x1024_1_1_0_0_n_n.contr.Idx) :
    (dot_S1024x512_S1024x512_S1024x1024_1_1_0_0_n_n.rhsIdx o q 0).val = (o 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_gram_1 (o : S1024x1024.Idx) (q : dot_S1024x512_S1024x512_S1024x1024_1_1_0_0_n_n.contr.Idx) :
    (dot_S1024x512_S1024x512_S1024x1024_1_1_0_0_n_n.rhsIdx o q 1).val = (q ⟨0, by decide⟩).val :=
  dot_S1024x512_S1024x512_S1024x1024_1_1_0_0_n_n.rhsIdx_val_of_single rfl o q

/-- The product of the rows with themselves, contracted along the rows' entries: entry `(i, j)` is the inner product
    of rows `i` and `j`. -/
theorem gram_apply (v2 : FVec Ideal S1024x512 .bf16) (i j : Fin 1024) :
    matmul dot_S1024x512_S1024x512_S1024x1024_1_1_0_0_n_n none v2 v2 (constant S1024x1024 .f32 0x00000000#32) (ix2 i j)
      = Cert.Spec.dot (fun k => v2 (ix2 i k)) (fun k => v2 (ix2 j k)) := by
  simp only [matmul]
  rw [Ideal.matmul_constant_zero_apply, ← Equiv.sum_comp (ValueIdx.contrEquiv1 dot_S1024x512_S1024x512_S1024x1024_1_1_0_0_n_n 512 rfl rfl).symm]
  unfold Cert.Spec.dot
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 i j) ((ValueIdx.contrEquiv1 dot_S1024x512_S1024x512_S1024x1024_1_1_0_0_n_n 512 rfl rfl).symm k) = ix2 i k := funext fun a => Fin.ext (by
    match a with
    | ⟨0, _⟩ => exact lhs_gram_0 _ _
    | ⟨1, _⟩ => exact (lhs_gram_1 _ _).trans hk)
  have er : dot_S1024x512_S1024x512_S1024x1024_1_1_0_0_n_n.rhsIdx (ix2 i j) ((ValueIdx.contrEquiv1 dot_S1024x512_S1024x512_S1024x1024_1_1_0_0_n_n 512 rfl rfl).symm k) = ix2 j k := funext fun a => Fin.ext (by
    match a with
    | ⟨0, _⟩ => exact rhs_gram_0 _ _
    | ⟨1, _⟩ => exact (rhs_gram_1 _ _).trans hk)
  rw [el, er]

/-! ## The diagonal test -/

/-- Two row numbers below 1024, as 32-bit words, are the same word exactly when they are the same number. -/
theorem sameWord (i j : Fin 1024) :
    IntOp.cmpi .eq (BitVec.ofNat 32 i.val) (BitVec.ofNat 32 j.val) = if i = j then 1#1 else 0#1 := by
  have hi := i.isLt
  have hj := j.isLt
  unfold IntOp.cmpi
  by_cases h : i = j
  · subst h; simp
  · rw [if_neg h]
    have hne : BitVec.ofNat 32 i.val ≠ BitVec.ofNat 32 j.val := by
      intro e
      apply h
      apply Fin.ext
      have := congrArg BitVec.toNat e
      simp only [BitVec.toNat_ofNat] at this
      omega
    rw [show (BitVec.ofNat 32 i.val == BitVec.ofNat 32 j.val) = false from beq_eq_false_iff_ne.mpr hne]
    rfl

/-- The row-number words: entry `(i, 0)` of the column of row numbers is the word of `i`. -/
theorem rowNumber_apply (i : Fin 1024) (u : Fin 1) :
    iota .tc S1024x1 32 [0] iota_S1024x1_d0_w32 (ix2 i u) = BitVec.ofNat 32 i.val :=
  iota_single_apply .tc S1024x1 32 0 iota_S1024x1_d0_w32 (ix2 i u)

/-- The column-number words: entry `(0, j)` of the row of column numbers is the word of `j`. -/
theorem colNumber_apply (u : Fin 1) (j : Fin 1024) :
    iota .tc S1x1024 32 [1] iota_S1x1024_d1_w32 (ix2 u j) = BitVec.ofNat 32 j.val :=
  iota_single_apply .tc S1x1024 32 1 iota_S1x1024_d1_w32 (ix2 u j)

/-- A choice on the bit of a decidable proposition is the `if`. -/
theorem select_same {α : Type} (same : Prop) [Decidable same] (a b : α) :
    Scalar.select (if same then 1#1 else 0#1) a b = if same then a else b := by
  by_cases h : same
  · rw [if_pos h, if_pos h]; exact ValueIdx.select_one a b
  · rw [if_neg h, if_neg h]; exact ValueIdx.select_zero a b

/-! ## The stored block at an entry -/

/-- The root and the word comparison of two tables, read at an entry. -/
theorem sqrt_entry {s : Shape} {φ : FTy} (a : FVec Ideal s φ) (i : s.Idx) : sqrt a i = Ideal.sqrt (a i) := rfl
theorem cmpi_entry {s : Shape} {w : Nat} (p : CmpIPredicate) (a b : IVec s w) (i : s.Idx) : cmpi p a b i = IntOp.cmpi p (a i) (b i) := rfl

/-- Entry `(0, i, j)` of the block the kernel stores. -/
theorem stored_apply (x0 : Vec Ideal S1x1024x512 .f32) (i j : Fin 1024) :
    k1_pay1 (F := Ideal) x0 (ix3 (0 : Fin 1) i j)
      = Cert.Spec.distMasked (i = j) (fun k => x0 (ix3 (0 : Fin 1) i k)) (fun k => x0 (ix3 (0 : Fin 1) j k)) := by
  unfold k1_pay1
  dsimp only
  rw [shapeCast_ab_1ab_apply]
  simp only [select_apply, cmpf_apply, cmpi_entry, sqrt_entry, broadcast_apply, maximumf_apply, subf_apply, addf_apply, mulf_apply]
  simp only [alongRows_apply, downColumns_apply, column_apply, gram_apply, truncf_apply, shapeCast_1ab_ab_apply]
  rw [rowNumber_apply i 0, colNumber_apply 0 j, sameWord, laid_apply, column_apply, squares_apply, squares_apply]
  simp only [select_same, shapeCast_1ab_ab_apply]
  rfl

/-! ## From the two blocks to the array -/

variable (V : (c : Dev nD) → (b : Ref sig .tc) → Buf (Elt Ideal) ((c : Thread nD τ).loc b))

/-- The stack of two row blocks as the region finds it. -/
abbrev stack (c : Dev nD) : FVec Ideal S2x1024x512 .f32 := V c main_v22

/-- The masked distance of rows `i` and `j` of member `s` of the stack. -/
def entry (c : Dev nD) (s : Fin 2) (i j : Fin 1024) : EReal :=
  Cert.Spec.distMasked (i = j) (fun k => stack V c (ix3 s i k)) (fun k => stack V c (ix3 s j k))

/-- The region's result as one function of the stack, entry by entry. -/
abbrev allPairs (c : Dev nD) : S2x1024x1024.Idx → EReal := fun y => entry V c (y 0) (y 1) (y 2)

/-- The stores' and loads' offsets are all zero. -/
theorem zeroOffsets : (![0, 0, 0] : Fin 3 → Nat) = fun _ => 0 := funext fun a => by fin_cases a <;> rfl

/-- Both windows move along the stack's first axis with the grid point and stay at the origin of the other two. -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- Grid point `t` writes back member `t` of the result: the masked distances of the rows of member `t` of the stack. -/
theorem flushed_eq (c : Dev nD) (t : Fin cfg1.N) :
    (dat1 (F := Ideal) V c).flushed 1 t = ((cfg1.win 1).blk t).view.read (Elt Ideal) (allPairs V c) := by
  show (cfg1.win 1).cut (grid1.coords t) ((dat1 V c).after 1 t) = _
  rw [after1_1]
  unfold out1_1
  rw [View.canon_unit_zero zeroOffsets]
  simp only [View.ld_unit_zero (S := S1x1024x512) zeroOffsets]
  obtain ⟨e0, e1, e2, f0, f1, f2⟩ := idx_facts t
  have hN : cfg1.N = 2 := N_1
  have ht : t.val < 2 := by have := t.isLt; omega
  funext y
  show k1_pay1 (F := Ideal) (iblk1 V c 0 t) y = allPairs V c (((cfg1.win 1).blk t).view.emb y)
  obtain ⟨u, i, j, rfl⟩ : ∃ (u : Fin 1) (i j : Fin 1024), y = ix3 u i j := ⟨y 0, y 1, y 2, @eq_ix3 1 1024 1024 y⟩
  obtain rfl : u = 0 := Fin.ext (by omega)
  refine (stored_apply (iblk1 V c 0 t) i j).trans ?_
  have he : ((cfg1.win 1).blk t).view.emb (ix3 (0 : Fin 1) i j) = (ix3 (⟨t.val, ht⟩ : Fin 2) i j : S2x1024x1024.Idx) := by
    funext a; apply Fin.ext
    match a with
    | ⟨0, _⟩ => show win1_1.index t (0 : Fin 3) * 1 + 1 * 0 = t.val; omega
    | ⟨1, _⟩ => show win1_1.index t (1 : Fin 3) * 1024 + 1 * i.val = i.val; omega
    | ⟨2, _⟩ => show win1_1.index t (2 : Fin 3) * 1024 + 1 * j.val = j.val; omega
  have hrow : ∀ (p : Fin 1024) (k : Fin 512),
      (iblk1 V c 0 t : Vec Ideal S1x1024x512 .f32) (ix3 (0 : Fin 1) p k) = stack V c (ix3 (⟨t.val, ht⟩ : Fin 2) p k) := by
    intro p k
    unfold iblk1
    rw [View.read_apply]
    show V c main_v22 _ = V c main_v22 _
    congr 1
    funext a; apply Fin.ext
    match a with
    | ⟨0, _⟩ => show win1_0.index t (0 : Fin 3) * 1 + 1 * 0 = t.val; omega
    | ⟨1, _⟩ => show win1_0.index t (1 : Fin 3) * 1024 + 1 * p.val = p.val; omega
    | ⟨2, _⟩ => show win1_0.index t (2 : Fin 3) * 512 + 1 * k.val = k.val; omega
  rw [he]
  show _ = entry V c ⟨t.val, ht⟩ i j
  unfold entry
  exact congrArg₂ (Cert.Spec.distMasked (i = j)) (funext (hrow i)) (funext (hrow j))

/-- An entry of the result is in grid point `t`'s block exactly when, on each axis, it lies in the block's range. -/
theorem mem_blk (t : Fin cfg1.N) (y : S2x1024x1024.Idx) :
    y ∈ ((cfg1.win 1).blk t).view.set ↔ ∀ a : Fin 3, win1_1.index t a * S1x1024x1024.size a ≤ (y a).val ∧ (y a).val < win1_1.index t a * S1x1024x1024.size a + S1x1024x1024.size a := by
  show y ∈ ((View.whole main_v23).slice (win1_1.rect t)).set ↔ _
  rw [View.set_slice_whole, Rect.mem_set_unit]
  exact Iff.rfl

/-- Every entry of the result is written back by the grid point of its member. -/
theorem covered (y : S2x1024x1024.Idx) :
    ∃ t : Fin cfg1.N, (cfg1.win 1).flush t = true ∧ y ∈ ((cfg1.win 1).blk t).view.set := by
  have hN : cfg1.N = 2 := N_1
  have hN' : grid1.N = 2 := N_1
  have h0 : (y 0).val < 2 := (y 0).isLt
  have h1 : (y 1).val < 1024 := (y 1).isLt
  have h2 : (y 2).val < 1024 := (y 2).isLt
  refine ⟨⟨(y 0).val, by omega⟩, flush1_1 _, ?_⟩
  obtain ⟨-, -, -, f0, f1, f2⟩ := idx_facts ⟨(y 0).val, by omega⟩
  have f0' : win1_1.index ⟨(y 0).val, by omega⟩ (0 : Fin 3) = (y 0).val := f0
  rw [mem_blk]
  intro a
  match a with
  | ⟨0, _⟩ => show win1_1.index ⟨(y 0).val, _⟩ (0 : Fin 3) * 1 ≤ (y 0).val ∧ (y 0).val < win1_1.index ⟨(y 0).val, _⟩ (0 : Fin 3) * 1 + 1; omega
  | ⟨1, _⟩ => show win1_1.index ⟨(y 0).val, _⟩ (1 : Fin 3) * 1024 ≤ (y 1).val ∧ (y 1).val < win1_1.index ⟨(y 0).val, _⟩ (1 : Fin 3) * 1024 + 1024; omega
  | ⟨2, _⟩ => show win1_1.index ⟨(y 0).val, _⟩ (2 : Fin 3) * 1024 ≤ (y 2).val ∧ (y 2).val < win1_1.index ⟨(y 0).val, _⟩ (2 : Fin 3) * 1024 + 1024; omega

/-- After the two grid points the result array holds every member's masked distances. -/
theorem allPairs_final (c : Dev nD) : (dat1 (F := Ideal) V c).arrAt 1 cfg1.N = allPairs V c :=
  (dat1 (F := Ideal) V c).arrAt_eq_of_cover 1 (allPairs V c) (fun t _ => flushed_eq V c t) covered

/-- Member `s` of the stack, rows `i` and `j`: their distance, forced to the root of zero on the diagonal. -/
theorem dist_final (c : Dev nD) (s : Fin 2) (i j : Fin 1024) :
    (dat1 (F := Ideal) V c).arrAt 1 cfg1.N (ix3 s i j)
      = Cert.Spec.distMasked (i = j) (fun k => V c main_v22 (ix3 s i k)) (fun k => V c main_v22 (ix3 s j k)) :=
  congrFun (allPairs_final V c) (ix3 s i j)

end Cert.KernelIdeal.DistRegion

end
-- ==== Proof.HostMid.lean ====
/-
  The host operations before the first region and between the two regions, read at an index.

  BEFORE THE FIRST REGION the host lays the labels out as one row; the features are as launched.

  BETWEEN THE REGIONS the first region has left the two halves' sums (`2 × 1024 × 512`) and counts (`2 × 1024 × 1`).
  The host takes member 0 and member 1 of each, cut to the first 1000 rows, adds the two members, clamps the count
  below at one, adds the center to the sum and divides by the count broadcast along the columns: the new center,
  `(center + sum₀ + sum₁) / max (cnt₀ + cnt₁) 1` at every `(cls, d)`. The center and the new center are each
  padded below by 24 rows to `1024 × 512` and stacked as members 0 and 1 of the array the second region reads.

  THE ROAD. Each stretch of operations is first read, for ANY contents `V` before it, as one composed term at the
  buffer in question (a buffer the stretch does not write keeps its contents). Then the term is read at coordinates:
  a slice shifts by its offsets, a reshape keeps the row-major position, a broadcast forgets the new axes, a pad is its
  operand inside the operand's extent, and a stack of two reads the member its leading coordinate names.
-/
import proofs.«416394_j29111288332476_3_alg».proof.Proof.Gen.KernelIdeal.Frame
import proofs.«416394_j29111288332476_3_alg».proof.Proof.Spec
import Idealize.ShloMosaic.Lib.Pipeline.Value
import Idealize.ShloMosaic.Lib.StableHlo.Run
import Idealize.ShloMosaic.Lib.KernelVsHost
import Idealize.ShloMosaic.Lib.IdealHost

noncomputable section

open scoped BigOperators
open Idealize.ShloMosaic Idealize.ShloMosaic.TcCoe Idealize.SL.Sem Idealize.ShloMosaic.ValueIdx
open Idealize.ShloMosaic.Pipeline (Dat)

namespace Cert.KernelIdeal.HostMid
open Cert.KernelIdeal Cert.KernelIdeal.Gen

variable (m : (ℓ : Loc nD τ sig) → Buf (Elt Ideal) ℓ) (ρ : Dev nD → PrngReg)

/-- The arrays the statements below speak of, at their literal types. -/
abbrev sumsPad (c : Dev nD) : FVec Ideal S2x1024x512 .f32 := V2 m ρ c main_v1_0
abbrev cntPad (c : Dev nD) : FVec Ideal S2x1024x1 .f32 := V2 m ρ c main_v1_1
abbrev cenArr (c : Dev nD) : FVec Ideal S1000x512 .f32 := m ((c : Thread nD τ).loc main_arg1)
abbrev newCen (c : Dev nD) : FVec Ideal S1000x512 .f32 := W7 m ρ c (Proc.devRef .tc main_v17)

/-! ## Each stretch of host operations as one term, from any contents `V` before it -/

section Stretches
variable (V : Valuation τ sig (Elt Ideal))

/-- The one operation before the first region writes neither the features nor the center, -/
theorem ops0_arg0 : StableHlo.after hostOps0 V (Proc.devRef .tc main_arg0) = V (Proc.devRef .tc main_arg0) := by
  after_results
theorem ops0_arg1 : StableHlo.after hostOps0 V (Proc.devRef .tc main_arg1) = V (Proc.devRef .tc main_arg1) := by
  after_results
/-- and leaves in `main_v0` the labels reshaped to one row. -/
theorem ops0_v0 :
    (StableHlo.after hostOps0 V (Proc.devRef .tc main_v0) : IVec S1x131072 32)
      = shapeCast S1x131072 (V (Proc.devRef .tc main_arg2) : IVec S131072 32) shapeCasts_S131072_S1x131072 := by
  after_results
  rfl

/-- The stretch after the first region does not write the center, -/
theorem ops1_arg1 : StableHlo.after hostOps1 V (Proc.devRef .tc main_arg1) = V (Proc.devRef .tc main_arg1) := by
  after_results

/-- and leaves in `main_v17` the quotient of (center + member 0 + member 1 of the sums) by the broadcast of
    (member 0 + member 1 of the counts, clamped below at the constant). -/
theorem ops1_v17 :
    (StableHlo.after hostOps1 V (Proc.devRef .tc main_v17) : FVec Ideal S1000x512 .f32)
      = Host.divf
          (addf (V (Proc.devRef .tc main_arg1) : FVec Ideal S1000x512 .f32)
            (addf (shapeCast S1000x512 (extractStridedSlice S1x1000x512 ![0, 0, 0] (V (Proc.devRef .tc main_v1_0) : FVec Ideal S2x1024x512 .f32) slices_S2x1024x512_S1x1000x512_0_0_0) shapeCasts_S1x1000x512_S1000x512)
                  (shapeCast S1000x512 (extractStridedSlice S1x1000x512 ![1, 0, 0] (V (Proc.devRef .tc main_v1_0) : FVec Ideal S2x1024x512 .f32) slices_S2x1024x512_S1x1000x512_1_0_0) shapeCasts_S1x1000x512_S1000x512)))
          (broadcastInDim S1000x512 ![0, 1] bcast_S1000x1_S1000x512_0_1
            (broadcastInDim S1000x1 ![0] bcast_S1000_S1000x1_0
              (maximumf
                (addf (shapeCast S1000 (extractStridedSlice S1x1000x1 ![0, 0, 0] (V (Proc.devRef .tc main_v1_1) : FVec Ideal S2x1024x1 .f32) slices_S2x1024x1_S1x1000x1_0_0_0) shapeCasts_S1x1000x1_S1000)
                      (shapeCast S1000 (extractStridedSlice S1x1000x1 ![1, 0, 0] (V (Proc.devRef .tc main_v1_1) : FVec Ideal S2x1024x1 .f32) slices_S2x1024x1_S1x1000x1_1_0_0) shapeCasts_S1x1000x1_S1000))
                (broadcastInDim S1000 ![] bcast_S_S1000 (constant (F := Ideal) S_ .f32 0x3F800000#32))))) := by
  after_results
  rfl

/-- None of the four later stretches writes the new center. -/
theorem ops1_1_v17 : StableHlo.after hostOps1_1 V (Proc.devRef .tc main_v17) = V (Proc.devRef .tc main_v17) := by
  after_results
theorem ops1_2_v17 : StableHlo.after hostOps1_2 V (Proc.devRef .tc main_v17) = V (Proc.devRef .tc main_v17) := by
  after_results
theorem ops1_3_v17 : StableHlo.after hostOps1_3 V (Proc.devRef .tc main_v17) = V (Proc.devRef .tc main_v17) := by
  after_results
theorem ops1_4_v17 : StableHlo.after hostOps1_4 V (Proc.devRef .tc main_v17) = V (Proc.devRef .tc main_v17) := by
  after_results

/-- The padded center is written once and kept by the two stretches after it. -/
theorem ops1_1_v18 :
    (StableHlo.after hostOps1_1 V (Proc.devRef .tc main_v18) : FVec Ideal S1024x512 .f32)
      = pad S1024x512 ![0, 0] ![24, 0] ![0, 0] (V (Proc.devRef .tc main_arg1) : FVec Ideal S1000x512 .f32)
          (sitofp (F := Ideal) .f32 (V (Proc.devRef .tc main_c) : IVec S_ 32)) pads_S1000x512_S1024x512_0240_000 h_S_ := by
  after_results
  rfl
theorem ops1_2_v18 : StableHlo.after hostOps1_2 V (Proc.devRef .tc main_v18) = V (Proc.devRef .tc main_v18) := by
  after_results
theorem ops1_3_v18 : StableHlo.after hostOps1_3 V (Proc.devRef .tc main_v18) = V (Proc.devRef .tc main_v18) := by
  after_results

/-- The padded new center. -/
theorem ops1_3_v19 :
    (StableHlo.after hostOps1_3 V (Proc.devRef .tc main_v19) : FVec Ideal S1024x512 .f32)
      = pad S1024x512 ![0, 0] ![24, 0] ![0, 0] (V (Proc.devRef .tc main_v17) : FVec Ideal S1000x512 .f32)
          (sitofp (F := Ideal) .f32 (V (Proc.devRef .tc main_c_0) : IVec S_ 32)) pads_S1000x512_S1024x512_0240_000 h_S_ := by
  after_results
  rfl

/-- The stack of the two padded arrays. -/
theorem ops1_4_v22 :
    (StableHlo.after hostOps1_4 V (Proc.devRef .tc main_v22) : FVec Ideal S2x1024x512 .f32)
      = concatenate S2x1024x512 0
          [⟨S1x1024x512, broadcastInDim S1x1024x512 ![1, 2] bcast_S1024x512_S1x1024x512_1_2 (V (Proc.devRef .tc main_v18) : FVec Ideal S1024x512 .f32)⟩,
           ⟨S1x1024x512, broadcastInDim S1x1024x512 ![1, 2] bcast_S1024x512_S1x1024x512_1_2 (V (Proc.devRef .tc main_v19) : FVec Ideal S1024x512 .f32)⟩]
          concatenates_S1x1024x512_S1x1024x512_S2x1024x512_d0 := by
  after_results

end Stretches

/-! ## The layout operations of the stretches, read at coordinates -/

/-- Member `h` of a stack of two `1024 × 512` arrays, cut to its first 1000 rows and laid out as `1000 × 512`,
    reads the stack at `(h, cls, d)`: the reshape keeps the position `512 cls + d`, the slice shifts the leading
    coordinate by `h`. -/
theorem member_rows (x : FVec Ideal S2x1024x512 .f32) (h : Fin 2) (off : Fin 3 → Nat) (hoff : off = ![h.val, 0, 0])
    (hs : S2x1024x512.Slices off S1x1000x512) (cls : Fin 1000) (d : Fin 512) :
    shapeCast S1000x512 (extractStridedSlice S1x1000x512 off x hs) shapeCasts_S1x1000x512_S1000x512 (ix2 cls d)
      = x (ix3 h (cls.castLE (by decide)) d) := by
  subst hoff
  refine (shapeCast_apply _ _ (ix2 cls d) (ix3 0 cls d) ?_).trans ?_
  · rw [Shape.rowMajor_val_three, Shape.rowMajor_val_two]
    show (0 * 1000 + cls.val) * 512 + d.val = cls.val * 512 + d.val
    omega
  · refine extractStridedSlice_apply _ x hs (ix3 0 cls d) (ix3 h (cls.castLE (by decide)) d) fun a => ?_
    match a with
    | ⟨0, _⟩ => show h.val = h.val + 0; omega
    | ⟨1, _⟩ => show cls.val = 0 + cls.val; omega
    | ⟨2, _⟩ => show d.val = 0 + d.val; omega

/-- The same for a stack of two `1024 × 1` columns, laid out as a vector of 1000. -/
theorem member_col (x : FVec Ideal S2x1024x1 .f32) (h : Fin 2) (off : Fin 3 → Nat) (hoff : off = ![h.val, 0, 0])
    (hs : S2x1024x1.Slices off S1x1000x1) (cls : Fin 1000) :
    shapeCast S1000 (extractStridedSlice S1x1000x1 off x hs) shapeCasts_S1x1000x1_S1000 (ix1 cls)
      = x (ix3 h (cls.castLE (by decide)) 0) := by
  subst hoff
  refine (shapeCast_apply _ _ (ix1 cls) (ix3 0 cls 0) ?_).trans ?_
  · rw [Shape.rowMajor_val_three, Shape.rowMajor_val_one]
    show (0 * 1000 + cls.val) * 1 + 0 = cls.val
    omega
  · refine extractStridedSlice_apply _ x hs (ix3 0 cls 0) (ix3 h (cls.castLE (by decide)) 0) fun a => ?_
    match a with
    | ⟨0, _⟩ => show h.val = h.val + 0; omega
    | ⟨1, _⟩ => show cls.val = 0 + cls.val; omega
    | ⟨2, _⟩ => show 0 = 0 + 0; omega

/-- The two members at the program's own offsets. -/
theorem member0_rows (x : FVec Ideal S2x1024x512 .f32) (cls : Fin 1000) (d : Fin 512) :
    shapeCast S1000x512 (extractStridedSlice S1x1000x512 ![0, 0, 0] x slices_S2x1024x512_S1x1000x512_0_0_0) shapeCasts_S1x1000x512_S1000x512 (ix2 cls d)
      = x (ix3 0 (cls.castLE (by decide)) d) := member_rows x 0 _ rfl _ cls d
theorem member1_rows (x : FVec Ideal S2x1024x512 .f32) (cls : Fin 1000) (d : Fin 512) :
    shapeCast S1000x512 (extractStridedSlice S1x1000x512 ![1, 0, 0] x slices_S2x1024x512_S1x1000x512_1_0_0) shapeCasts_S1x1000x512_S1000x512 (ix2 cls d)
      = x (ix3 1 (cls.castLE (by decide)) d) := member_rows x 1 _ rfl _ cls d
theorem member0_col (x : FVec Ideal S2x1024x1 .f32) (cls : Fin 1000) :
    shapeCast S1000 (extractStridedSlice S1x1000x1 ![0, 0, 0] x slices_S2x1024x1_S1x1000x1_0_0_0) shapeCasts_S1x1000x1_S1000 (ix1 cls)
      = x (ix3 0 (cls.castLE (by decide)) 0) := member_col x 0 _ rfl _ cls
theorem member1_col (x : FVec Ideal S2x1024x1 .f32) (cls : Fin 1000) :
    shapeCast S1000 (extractStridedSlice S1x1000x1 ![1, 0, 0] x slices_S2x1024x1_S1x1000x1_1_0_0) shapeCasts_S1x1000x1_S1000 (ix1 cls)
      = x (ix3 1 (cls.castLE (by decide)) 0) := member_col x 1 _ rfl _ cls

/-- A vector of 1000 broadcast along the columns reads its entry of the row. -/
theorem bcast_rows (y : FVec Ideal S1000 .f32) (cls : Fin 1000) (d : Fin 512) :
    broadcastInDim S1000x512 ![0, 1] bcast_S1000x1_S1000x512_0_1 (broadcastInDim S1000x1 ![0] bcast_S1000_S1000x1_0 y) (ix2 cls d)
      = y (ix1 cls) := by
  refine (broadcastInDim_apply _ _ _ (ix2 cls d) (ix2 cls 0) fun a => ?_).trans
    (broadcastInDim_apply _ _ y (ix2 cls 0) (ix1 cls) fun a => ?_)
  · match a with
    | ⟨0, _⟩ => rfl
    | ⟨1, _⟩ => rfl
  · match a with
    | ⟨0, _⟩ => rfl

/-- A `1024 × 512` array as the one member of a stack reads itself. -/
theorem member_bcast (y : FVec Ideal S1024x512 .f32) (r : Fin 1024) (k : Fin 512) :
    broadcastInDim S1x1024x512 ![1, 2] bcast_S1024x512_S1x1024x512_1_2 y (ix3 0 r k) = y (ix2 r k) := by
  refine broadcastInDim_apply _ _ y (ix3 0 r k) (ix2 r k) fun a => ?_
  match a with
  | ⟨0, _⟩ => rfl
  | ⟨1, _⟩ => rfl

/-- A `1000 × 512` array padded below by 24 rows reads itself on its first 1000 rows. -/
theorem pad_rows (x : FVec Ideal S1000x512 .f32) (v : FVec Ideal S_ .f32) (r : Fin 1000) (k : Fin 512) :
    pad S1024x512 ![0, 0] ![24, 0] ![0, 0] x v pads_S1000x512_S1024x512_0240_000 h_S_ (ix2 (r.castLE (by decide)) k) = x (ix2 r k) := by
  refine pad_apply_of_inside _ _ _ x v _ h_S_ (ix2 (r.castLE (by decide)) k) (ix2 r k) fun a => ?_
  match a with
  | ⟨0, _⟩ => show r.val = 0 + r.val * (0 + 1); omega
  | ⟨1, _⟩ => show k.val = 0 + k.val * (0 + 1); omega

/-- The stack of two `1024 × 512` arrays reads, at member 0, the first array, -/
theorem stack_member0 (a b : FVec Ideal S1024x512 .f32) (r : Fin 1024) (k : Fin 512) :
    concatenate S2x1024x512 0
        [⟨S1x1024x512, broadcastInDim S1x1024x512 ![1, 2] bcast_S1024x512_S1x1024x512_1_2 a⟩,
         ⟨S1x1024x512, broadcastInDim S1x1024x512 ![1, 2] bcast_S1024x512_S1x1024x512_1_2 b⟩]
        concatenates_S1x1024x512_S1x1024x512_S2x1024x512_d0 (ix3 0 r k) = a (ix2 r k) := by
  refine (concatenate_pair_apply_left (t := S2x1024x512) (s₁ := S1x1024x512) (s₂ := S1x1024x512) (0 : Fin 3) _ _
    concatenates_S1x1024x512_S1x1024x512_S2x1024x512_d0 (ix3 (0 : Fin 2) r k) rfl (ix3 (0 : Fin 1) r k) fun b => ?_).trans (member_bcast a r k)
  match b with
  | ⟨0, _⟩ => rfl
  | ⟨1, _⟩ => rfl
  | ⟨2, _⟩ => rfl

/-- and at member 1 the second. -/
theorem stack_member1 (a b : FVec Ideal S1024x512 .f32) (r : Fin 1024) (k : Fin 512) :
    concatenate S2x1024x512 0
        [⟨S1x1024x512, broadcastInDim S1x1024x512 ![1, 2] bcast_S1024x512_S1x1024x512_1_2 a⟩,
         ⟨S1x1024x512, broadcastInDim S1x1024x512 ![1, 2] bcast_S1024x512_S1x1024x512_1_2 b⟩]
        concatenates_S1x1024x512_S1x1024x512_S2x1024x512_d0 (ix3 1 r k) = b (ix2 r k) := by
  refine (concatenate_pair_apply_right (t := S2x1024x512) (s₁ := S1x1024x512) (s₂ := S1x1024x512) (0 : Fin 3) _ _
    concatenates_S1x1024x512_S1x1024x512_S2x1024x512_d0 (ix3 (1 : Fin 2) r k) rfl rfl (ix3 (0 : Fin 1) r k) (fun b hb => ?_) ?_).trans (member_bcast b r k)
  rotate_left
  · show 0 + 1 = 1
    rfl
  match b, hb with
  | ⟨0, _⟩, hb => exact absurd rfl hb
  | ⟨1, _⟩, _ => rfl
  | ⟨2, _⟩, _ => rfl

/-! ## The buffers the statements speak of, through the folds -/

/-- The first region does not write the center, nor does the operation before it. -/
theorem arg1_W2 (c : Dev nD) : W2 m ρ c (Proc.devRef .tc main_arg1) = m ((c : Thread nD τ).loc main_arg1) :=
  (W2_of_ne m ρ c main_arg1 (by decide)).trans (ops0_arg1 (W0 m ρ c))

/-- The new center at the second region's entry is the one the first stretch left. -/
theorem v17_W7 (c : Dev nD) : W7 m ρ c (Proc.devRef .tc main_v17) = W3 m ρ c (Proc.devRef .tc main_v17) :=
  (ops1_4_v17 (W6 m ρ c)).trans ((ops1_3_v17 (W5 m ρ c)).trans ((ops1_2_v17 (W4 m ρ c)).trans (ops1_1_v17 (W3 m ρ c))))

/-- The padded center before the stacking is the one its own stretch left. -/
theorem v18_W6 (c : Dev nD) : W6 m ρ c (Proc.devRef .tc main_v18) = W4 m ρ c (Proc.devRef .tc main_v18) :=
  (ops1_3_v18 (W5 m ρ c)).trans (ops1_2_v18 (W4 m ρ c))

/-- The first region finds the features as launched, -/
theorem feat_W1 (c : Dev nD) : V1 m ρ c main_arg0 = m ((c : Thread nD τ).loc main_arg0) :=
  ops0_arg0 (W0 m ρ c)
/-- and the labels laid out as one row. -/
theorem lbl_W1 (c : Dev nD) (n : Fin 131072) : V1 m ρ c main_v0 (ix2 0 n) = m ((c : Thread nD τ).loc main_arg2) (ix1 n) := by
  refine (congrFun (ops0_v0 (W0 m ρ c)) (ix2 0 n)).trans ?_
  refine shapeCast_apply _ _ (ix2 0 n) (ix1 n) ?_
  rw [Shape.rowMajor_val_one, Shape.rowMajor_val_two]
  show n.val = 0 * 131072 + n.val
  omega

/-- The new center at `(cls, d)`: the center plus the two halves' sums, over the two halves' counts clamped below at one. -/
theorem center_W7 (c : Dev nD) (cls : Fin 1000) (d : Fin 512) :
    newCen m ρ c (ix2 cls d)
      = Ideal.div (cenArr m c (ix2 cls d)
            + (sumsPad m ρ c (ix3 0 (cls.castLE (by decide)) d) + sumsPad m ρ c (ix3 1 (cls.castLE (by decide)) d)))
          (max (cntPad m ρ c (ix3 0 (cls.castLE (by decide)) 0) + cntPad m ρ c (ix3 1 (cls.castLE (by decide)) 0)) Cert.Spec.one32) := by
  refine (congrFun ((v17_W7 m ρ c).trans (ops1_v17 (W2 m ρ c))) (ix2 cls d)).trans ?_
  rw [hostDivf_apply, addf_apply, addf_apply, member0_rows, member1_rows, bcast_rows, maximumf_apply, addf_apply,
    member0_col, member1_col, broadcastInDim_scalar_apply, constant_apply, arg1_W2]
  rfl

/-- The stack the second region reads: member 0's first 1000 rows are the center's, -/
theorem stack0_W7 (c : Dev nD) (r : Fin 1000) (k : Fin 512) :
    V7 m ρ c main_v22 (ix3 0 (r.castLE (by decide)) k) = m ((c : Thread nD τ).loc main_arg1) (ix2 r k) := by
  refine (congrFun (ops1_4_v22 (W6 m ρ c)) (ix3 0 (r.castLE (by decide)) k)).trans ?_
  refine (stack_member0 _ _ (r.castLE (by decide)) k).trans ?_
  refine (congrFun ((v18_W6 m ρ c).trans (ops1_1_v18 (W3 m ρ c))) (ix2 (r.castLE (by decide)) k)).trans ?_
  refine (pad_rows _ _ r k).trans ?_
  exact congrFun ((ops1_arg1 (W2 m ρ c)).trans (arg1_W2 m ρ c)) (ix2 r k)
/-- member 1's the new center's. -/
theorem stack1_W7 (c : Dev nD) (r : Fin 1000) (k : Fin 512) :
    V7 m ρ c main_v22 (ix3 1 (r.castLE (by decide)) k) = W7 m ρ c (Proc.devRef .tc main_v17) (ix2 r k) := by
  refine (congrFun (ops1_4_v22 (W6 m ρ c)) (ix3 1 (r.castLE (by decide)) k)).trans ?_
  refine (stack_member1 _ _ (r.castLE (by decide)) k).trans ?_
  refine (congrFun (ops1_3_v19 (W5 m ρ c)) (ix2 (r.castLE (by decide)) k)).trans ?_
  refine (pad_rows _ _ r k).trans ?_
  exact (congrFun ((ops1_4_v17 (W6 m ρ c)).trans (ops1_3_v17 (W5 m ρ c))) (ix2 r k)).symm

end Cert.KernelIdeal.HostMid

end
-- ==== Proof.HostTail.lean ====
/-
  The host operations after the second region.

  The second region leaves the distance array of shape [2, 1024, 1024]: member 0 the initial distances, member 1 the
  new ones. The host then takes each member's leading 1000 by 1000 block (a slice, then the unit axis dropped), forms
  the threshold (three times the mean of member 0's block), and returns the mean of `thr - d` where `d < thr` and of
  `0` elsewhere over member 1's block. None of these operations writes the new center.

  `center_W11`: the center's buffer at the end is what it was at the second region's entry.
  `loss_W11`: the returned loss is `Cert.Spec.lossOf` of the two blocks, each read entrywise off the array the
  second region leaves (`member0_eq`, `member1_eq`); the three stretches of operations are composed one at a time
  (`tail2_2`, `tail2_1`, `tail2_v32`, `tail2_v34`, `tail2_cst4`), each stated at arbitrary entry contents.
-/
import proofs.«416394_j29111288332476_3_alg».proof.Proof.Gen.KernelIdeal.Frame
import proofs.«416394_j29111288332476_3_alg».proof.Proof.Spec
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.HostTail
open Cert.KernelIdeal Cert.KernelIdeal.Gen

variable (m : (ℓ : Loc nD τ sig) → Buf (Elt Ideal) ℓ) (ρ : Dev nD → PrngReg)

/-- Nothing after the second region's entry writes the new center. -/
theorem center_W11 (c : Dev nD) : W11 m ρ c (Proc.devRef .tc main_v17) = W7 m ρ c (Proc.devRef .tc main_v17) :=
  calc W11 m ρ c (Proc.devRef .tc main_v17)
    _ = W10 m ρ c (Proc.devRef .tc main_v17) := StableHlo.after_of_forall_not_mem (b := Proc.devRef .tc main_v17) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v17) := StableHlo.after_of_forall_not_mem (b := Proc.devRef .tc main_v17) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v17) := StableHlo.after_of_forall_not_mem (b := Proc.devRef .tc main_v17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v17) := W8_of_ne m ρ c main_v17 (by decide)

/-- A member of the distance array: its leading 1000 by 1000 block, as the host slices and reshapes it. -/
abbrev member0 (X : FVec Ideal S2x1024x1024 .f32) : FVec Ideal S1000x1000 .f32 :=
  shapeCast S1000x1000 (extractStridedSlice S1x1000x1000 ![0, 0, 0] X Facts₀.slices_S2x1024x1024_S1x1000x1000_0_0_0)
    Facts₀.shapeCasts_S1x1000x1000_S1000x1000
abbrev member1 (X : FVec Ideal S2x1024x1024 .f32) : FVec Ideal S1000x1000 .f32 :=
  shapeCast S1000x1000 (extractStridedSlice S1x1000x1000 ![1, 0, 0] X Facts₀.slices_S2x1024x1024_S1x1000x1000_1_0_0)
    Facts₀.shapeCasts_S1x1000x1000_S1000x1000

/-- The threshold: three times the mean of the first member. -/
abbrev thr (A : FVec Ideal S1000x1000 .f32) : FVec Ideal S_ .f32 :=
  mulf (Host.divf (Host.reduceAdd A (constant (F := Ideal) S_ .f32 0x00000000#32) Facts₀.reducesTo_S1000x1000_S_d0_1 Facts₀.h_S_)
    (constant (F := Ideal) S_ .f32 0x49742400#32)) (constant (F := Ideal) S_ .f32 0x40400000#32)

/-- The last stretch: the mean of the hinge terms. -/
theorem tail2_2 (V : Valuation τ sig (Elt Ideal)) :
    StableHlo.after hostOps2_2 V (Proc.devRef .tc main_v37)
      = Host.divf (Host.reduceAdd (V (Proc.devRef .tc main_v35) : FVec Ideal S1000x1000 .f32) (constant (F := Ideal) S_ .f32 0x00000000#32)
          Facts₀.reducesTo_S1000x1000_S_d0_1 Facts₀.h_S_) (constant (F := Ideal) S_ .f32 0x49742400#32) := by
  after_results

/-- The middle stretch: the selection. -/
theorem tail2_1 (V : Valuation τ sig (Elt Ideal)) :
    StableHlo.after hostOps2_1 V (Proc.devRef .tc main_v35)
      = select (V (Proc.devRef .tc main_v32) : IVec S1000x1000 1) (V (Proc.devRef .tc main_v34) : FVec Ideal S1000x1000 .f32)
          (broadcastInDim S1000x1000 ![] Facts₀.bcast_S_S1000x1000 (id (V (Proc.devRef .tc main_cst_4) : FVec Ideal S_ .f32))) := by
  after_results
  rfl

/-- The first stretch, at the comparison, -/
theorem tail2_v32 (V : Valuation τ sig (Elt Ideal)) :
    StableHlo.after hostOps2 V (Proc.devRef .tc main_v32)
      = cmpf .olt (member1 (V (Proc.devRef .tc main_v23)))
          (broadcastInDim S1000x1000 ![] Facts₀.bcast_S_S1000x1000 (thr (member0 (V (Proc.devRef .tc main_v23))))) := by
  after_results
  rfl

/-- at the difference, -/
theorem tail2_v34 (V : Valuation τ sig (Elt Ideal)) :
    StableHlo.after hostOps2 V (Proc.devRef .tc main_v34)
      = subf (broadcastInDim S1000x1000 ![] Facts₀.bcast_S_S1000x1000 (thr (member0 (V (Proc.devRef .tc main_v23)))))
          (member1 (V (Proc.devRef .tc main_v23))) := by
  after_results
  rfl

/-- and at the zero. -/
theorem tail2_cst4 (V : Valuation τ sig (Elt Ideal)) :
    StableHlo.after hostOps2 V (Proc.devRef .tc main_cst_4) = constant (F := Ideal) S_ .f32 0x00000000#32 := by
  after_results

/-- The members read at an index: the slice shifts the leading coordinate, the reshape drops the unit axis. -/
theorem member0_eq (X : FVec Ideal S2x1024x1024 .f32) :
    member0 X = fun j => X (ix3 0 ((j 0).castLE (by decide)) ((j 1).castLE (by decide))) := by
  funext j
  show shapeCast S1000x1000 _ _ j = _
  rw [shapeCast_dropUnit_apply ![1000, 1000]]
  refine extractStridedSlice_apply _ _ _ _ _ (fun a => ?_)
  match a with
  | ⟨0, _⟩ => rfl
  | ⟨1, _⟩ => exact (Nat.zero_add _).symm
  | ⟨2, _⟩ => exact (Nat.zero_add _).symm

theorem member1_eq (X : FVec Ideal S2x1024x1024 .f32) :
    member1 X = fun j => X (ix3 1 ((j 0).castLE (by decide)) ((j 1).castLE (by decide))) := by
  funext j
  show shapeCast S1000x1000 _ _ j = _
  rw [shapeCast_dropUnit_apply ![1000, 1000]]
  refine extractStridedSlice_apply _ _ _ _ _ (fun a => ?_)
  match a with
  | ⟨0, _⟩ => rfl
  | ⟨1, _⟩ => exact (Nat.zero_add _).symm
  | ⟨2, _⟩ => exact (Nat.zero_add _).symm

/-- The loss is the hinge loss of the two members' leading 1000 by 1000 blocks. -/
theorem loss_W11 (c : Dev nD) :
    W11 m ρ c (Proc.devRef .tc main_v37)
      = Cert.Spec.lossOf (F := Ideal) Facts₀.bcast_S_S1000x1000 Facts₀.reducesTo_S1000x1000_S_d0_1 Facts₀.h_S_
          (fun j => V8 m ρ c main_v23 (ix3 0 ((j 0).castLE (by decide)) ((j 1).castLE (by decide))))
          (fun j => V8 m ρ c main_v23 (ix3 1 ((j 0).castLE (by decide)) ((j 1).castLE (by decide)))) := by
  refine Eq.trans ?_ (congrArg₂ (Cert.Spec.lossOf (F := Ideal) Facts₀.bcast_S_S1000x1000 Facts₀.reducesTo_S1000x1000_S_d0_1 Facts₀.h_S_)
    (member0_eq (V8 m ρ c main_v23)) (member1_eq (V8 m ρ c main_v23)))
  show StableHlo.after hostOps2_2 (StableHlo.after hostOps2_1 (StableHlo.after hostOps2 (W8 m ρ c))) (Proc.devRef .tc main_v37) = _
  rw [tail2_2, tail2_1, tail2_v32, tail2_v34, tail2_cst4]
  rfl

end Cert.KernelIdeal.HostTail

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.RefSide.lean ====
/-
  The reference's stages read at an index, over the extended reals.

  DISTANCES.  For a matrix c of 1000 rows of 512 entries the reference forms, at (i, j),
  a(i) = 0 + ∑_k c(i,k)², b(j) = 0 + ∑_k c(j,k)², g(i,j) = ∑_k c(i,k) c(j,k) (the product of c with its transpose),
  then max (a(i) + b(j) - 2 g(i,j)) 0, and the guarded root of it: this is the distance of rows i and j of c
  (ref_dinit for c the center, ref_dnew for c the new center). The row and column broadcasts and the transpose only
  rename indices: the composed index maps are the coordinate pairs (i,k) and (j,k).

  THE NEW CENTER.  Two accumulating scatters indexed by the labels: the count of the rows labelled cls
  (0 + ∑ over those rows of 1) and, in column d, the sum of their features (0 + ∑ over those rows of the feature);
  the new center at (cls, d) is (center + feature sum) / max count 1 (ref_center).

  THE LOSS.  The last stages are, term for term, the hinge loss of the two distance arrays (ref_loss).
-/
import proofs.«416394_j29111288332476_3_alg».proof.Proof.Gen.ReferenceIdeal.Read
import proofs.«416394_j29111288332476_3_alg».proof.Proof.Spec
import proofs.«416394_j29111288332476_3_alg».proof.Proof.LibGatherScatter

noncomputable section

open scoped BigOperators
open Idealize.ShloMosaic Idealize.ShloMosaic.TcCoe Idealize.SL.Sem Idealize.ShloMosaic.ValueIdx

namespace Cert.ReferenceIdeal.RefSide
open Cert.ReferenceIdeal Cert.ReferenceIdeal.Read

variable (x0 : (⟨S131072x512, .f32⟩ : BufTy).Contents (Elt Ideal)) (x1 : (⟨S1000x512, .f32⟩ : BufTy).Contents (Elt Ideal)) (x2 : (⟨S131072, .i32⟩ : BufTy).Contents (Elt Ideal))

/-! ## The composed index maps are coordinate pairs -/

/-- Row sum of squares, broadcast along columns: entry `k` of row `i`. -/
theorem e_row1 (i j : Fin 1000) (k : Fin 512) : idx_main_v1 (idx_main_v2 (idx_main_v6 (ix2 i j))) k = ix2 i k :=
  funext fun a => Fin.ext (by match a with | ⟨0, _⟩ => rfl | ⟨1, _⟩ => rfl)
/-- Row sum of squares, broadcast along rows: entry `k` of row `j`. -/
theorem e_col4 (i j : Fin 1000) (k : Fin 512) : idx_main_v4 (idx_main_v5 (idx_main_v7 (ix2 i j))) k = ix2 j k :=
  funext fun a => Fin.ext (by match a with | ⟨0, _⟩ => rfl | ⟨1, _⟩ => rfl)
/-- The product's left factor: entry `k` of row `i`. -/
theorem e_l10 (i j : Fin 1000) (k : Fin 512) : lidx_main_v10 (ix2 i j) k = ix2 i k :=
  funext fun a => Fin.ext (by match a with | ⟨0, _⟩ => rfl | ⟨1, _⟩ => rfl)
/-- The product's right factor, through the transpose: entry `k` of row `j`. -/
theorem e_r10 (i j : Fin 1000) (k : Fin 512) : idx_main_v9 (ridx_main_v10 (ix2 i j) k) = ix2 j k :=
  funext fun a => Fin.ext (by match a with | ⟨0, _⟩ => rfl | ⟨1, _⟩ => rfl)
/-- The same four for the new center's chain. -/
theorem e_row38 (i j : Fin 1000) (k : Fin 512) : idx_main_v38 (idx_main_v39 (idx_main_v43 (ix2 i j))) k = ix2 i k :=
  funext fun a => Fin.ext (by match a with | ⟨0, _⟩ => rfl | ⟨1, _⟩ => rfl)
theorem e_col41 (i j : Fin 1000) (k : Fin 512) : idx_main_v41 (idx_main_v42 (idx_main_v44 (ix2 i j))) k = ix2 j k :=
  funext fun a => Fin.ext (by match a with | ⟨0, _⟩ => rfl | ⟨1, _⟩ => rfl)
theorem e_l47 (i j : Fin 1000) (k : Fin 512) : lidx_main_v47 (ix2 i j) k = ix2 i k :=
  funext fun a => Fin.ext (by match a with | ⟨0, _⟩ => rfl | ⟨1, _⟩ => rfl)
theorem e_r47 (i j : Fin 1000) (k : Fin 512) : idx_main_v46 (ridx_main_v47 (ix2 i j) k) = ix2 j k :=
  funext fun a => Fin.ext (by match a with | ⟨0, _⟩ => rfl | ⟨1, _⟩ => rfl)
/-- The labels as a column: entry `(j, 0)` is label `j`. -/
theorem e_lbl26 (j : Fin 131072) : idx_main_v26 (ix2 j 0) = ix1 j :=
  funext fun a => Fin.ext (by match a with | ⟨0, _⟩ => rfl)
theorem e_lbl29 (j : Fin 131072) : idx_main_v29 (ix2 j 0) = ix1 j :=
  funext fun a => Fin.ext (by match a with | ⟨0, _⟩ => rfl)
/-- The clamped count, broadcast along columns: class `cls`. -/
theorem e_cnt (cls : Fin 1000) (d : Fin 512) : idx_main_v34 (idx_main_v35 (ix2 cls d)) = ix1 cls :=
  funext fun a => Fin.ext (by match a with | ⟨0, _⟩ => rfl)

/-! ## The four stages -/

/-- The initial distances are the distances of the center's rows. -/
theorem ref_dinit (i j : Fin 1000) :
    val_main_v20 (F := Ideal) x1 (ix2 i j) = Cert.Spec.dist (fun k => x1 (ix2 i k)) (fun k => x1 (ix2 j k)) := by
  simp only [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply,
    val_main_v5_apply, val_main_v4_apply, val_main_v3_apply, val_main_v2_apply, val_main_v1_apply, val_main_v0_apply,
    val_main_call1_v1_apply, val_main_call1_v0_apply, val_main_call0_v1_apply, val_main_call0_v0_apply,
    val_main_cst_apply, val_main_cst_0_apply, val_main_cst_1_apply, val_main_cst_2_apply, val_main_cst_3_apply,
    val_main_cst_4_apply, val_main_cst_5_apply,
    e_row1, e_col4, e_l10, e_r10]
  simp only [Cert.Spec.dist, Cert.Spec.root, Cert.Spec.gap, Cert.Spec.sq, Cert.Spec.dot, Cert.Spec.zero32, Cert.Spec.one32,
    Cert.Spec.two32, Ideal.ofBits_def, Ideal.addf_def, Ideal.subf_def, Ideal.mulf_def, Ideal.maximumf_def, Ideal.cmpf_def,
    Ideal.hostUnary_sqrt_def, Ideal.ofBits_zero_f32, zero_add]

/-- The new distances are the distances of the new center's rows. -/
theorem ref_dnew (i j : Fin 1000) :
    val_main_v57 (F := Ideal) x0 x1 x2 (ix2 i j)
      = Cert.Spec.dist (fun k => val_main_v36 (F := Ideal) x0 x1 x2 (ix2 i k)) (fun k => val_main_v36 (F := Ideal) x0 x1 x2 (ix2 j k)) := by
  simp only [val_main_v57_apply, val_main_v56_apply, val_main_v55_apply, val_main_v54_apply, val_main_v53_apply,
    val_main_v52_apply, val_main_v51_apply, val_main_v50_apply, val_main_v49_apply, val_main_v48_apply,
    val_main_v47_apply, val_main_v46_apply, val_main_v45_apply, val_main_v44_apply, val_main_v43_apply,
    val_main_v42_apply, val_main_v41_apply, val_main_v40_apply, val_main_v39_apply, val_main_v38_apply, val_main_v37_apply,
    val_main_call3_v1_apply, val_main_call3_v0_apply, val_main_call2_v1_apply, val_main_call2_v0_apply,
    val_main_cst_13_apply, val_main_cst_14_apply, val_main_cst_15_apply, val_main_cst_16_apply, val_main_cst_17_apply,
    val_main_cst_18_apply, val_main_cst_19_apply,
    e_row38, e_col41, e_l47, e_r47]
  simp only [Cert.Spec.dist, Cert.Spec.root, Cert.Spec.gap, Cert.Spec.sq, Cert.Spec.dot, Cert.Spec.zero32, Cert.Spec.one32,
    Cert.Spec.two32, Ideal.ofBits_def, Ideal.addf_def, Ideal.subf_def, Ideal.mulf_def, Ideal.maximumf_def, Ideal.cmpf_def,
    Ideal.hostUnary_sqrt_def, Ideal.ofBits_zero_f32, zero_add]

/-- The loss is the hinge loss of the two. -/
theorem ref_loss :
    val_main_v64 (F := Ideal) x0 x1 x2
      = Cert.Spec.lossOf (F := Ideal) Facts₀.bcast_S_S1000x1000 Facts₀.reducesTo_S1000x1000_S_d0_1 Facts₀.h_S_
          (val_main_v20 (F := Ideal) x1) (val_main_v57 (F := Ideal) x0 x1 x2) := by
  generalize hA : val_main_v20 (F := Ideal) x1 = A
  generalize hB : val_main_v57 (F := Ideal) x0 x1 x2 = B
  unfold val_main_v64 val_main_v63 val_main_v62 val_main_v61 val_main_v60 val_main_v59 val_main_v58 val_main_v23 val_main_v22
    val_main_v21 val_main_call4_v1 val_main_call4_v0 val_main_cst_20 val_main_cst_21 val_main_cst_22 val_main_cst_6
    val_main_cst_7 val_main_cst_8 Cert.Spec.lossOf
  rw [hA, hB]

/-- The number of rows labelled `cls`: the ones scattered by the labels into a zero vector. -/
theorem count_apply (cls : Fin 1000) :
    val_main_v27 (F := Ideal) x2 (ix1 cls)
      = Cert.Spec.zero32 + ∑ j ∈ Finset.univ.filter (fun j : Fin 131072 => (x2 (ix1 j)).toInt = (cls.val : Int)), Cert.Spec.one32 := by
  unfold val_main_v27
  have hd : scatter_S1000_S131072x1_S131072_n_0_0_1
      = GatherScatter.vecScatterDims 1000 131072 Gen.scatter_S1000_S131072x1_S131072_n_0_0_1_wf := rfl
  rw [hd, GatherScatter.vecScatterAdd_apply]
  simp only [val_main_v26_apply, e_lbl26, val_main_v25_apply, val_main_v24_apply, val_main_cst_9_apply, val_main_cst_10_apply,
    Ideal.ofBits_def, Cert.Spec.zero32, Cert.Spec.one32]

/-- Column `d` of the features of the rows labelled `cls`, added: the feature rows scattered by the labels into a zero matrix. -/
theorem rowsum_apply (cls : Fin 1000) (d : Fin 512) :
    val_main_v30 (F := Ideal) x0 x2 (ix2 cls d)
      = Cert.Spec.zero32 + ∑ j ∈ Finset.univ.filter (fun j : Fin 131072 => (x2 (ix1 j)).toInt = (cls.val : Int)), x0 (ix2 j d) := by
  unfold val_main_v30
  have hd : scatter_S1000x512_S131072x1_S131072x512_1_0_0_1
      = GatherScatter.rowScatterDims 1000 512 131072 Gen.scatter_S1000x512_S131072x1_S131072x512_1_0_0_1_wf := rfl
  rw [hd, GatherScatter.rowScatterAdd_apply]
  simp only [val_main_v29_apply, e_lbl29, val_main_v28_apply, val_main_cst_11_apply, Ideal.ofBits_def, Cert.Spec.zero32]

/-- The new center at `(cls, d)`: the center plus the features of the rows labelled `cls`, over their number clamped below at one. -/
theorem ref_center (cls : Fin 1000) (d : Fin 512) :
    val_main_v36 (F := Ideal) x0 x1 x2 (ix2 cls d)
      = Ideal.div (x1 (ix2 cls d)
          + (Cert.Spec.zero32 + ∑ j ∈ Finset.univ.filter (fun j : Fin 131072 => (x2 (ix1 j)).toInt = (cls.val : Int)), x0 (ix2 j d)))
          (max (Cert.Spec.zero32 + ∑ j ∈ Finset.univ.filter (fun j : Fin 131072 => (x2 (ix1 j)).toInt = (cls.val : Int)), Cert.Spec.one32) Cert.Spec.one32) := by
  rw [val_main_v36_apply, val_main_v31_apply, val_main_v35_apply, val_main_v34_apply, val_main_v33_apply, e_cnt,
    rowsum_apply, count_apply, val_main_v32_apply, val_main_cst_12_apply]
  simp only [Ideal.hostDivf_def, Ideal.addf_def, Ideal.maximumf_def, Ideal.ofBits_def, Cert.Spec.one32]

end Cert.ReferenceIdeal.RefSide

end
-- ==== Proof.SegAlgebra.lean ====
/-
  The laws that join the two sides, over the extended reals.

  CONSTANTS.  The words of zero, one (in both widths) and two denote the reals `0`, `1`, `2`.

  SEGMENT SUMS.  Row `4096 t + b` runs over the whole batch as `(t, b)` runs over 32 × 4096 (`sum_tiles`), and tile
  `16 h + i` over the 32 tiles as `(h, i)` runs over 2 × 16 (`sum_halves`): both are the bijection of a product of two
  finite ranges with the range of the product. For a class below 1000 the label word equals the class's word exactly
  when the label read signed is the class (`word_iff`), so `hit * v` is `v` on the class's rows and `0` elsewhere
  (`hit_mul`: only `1 * v = v` and `0 * v = 0` are used, the extended reals being no ring), and the two halves' shares
  add up to the sum over the class's rows.

  DISTANCES.  For a row of reals the sum of squares is a real `a` (`sq_real`), and `a + a - 2 a = 0`, so on the diagonal
  the clamped squared distance is already the zero it is forced to.

  REALS.  A finite sum of reals is a real (`coe_sum`), and a real over the maximum of a real and one is a real, that
  maximum being a real at least one, hence nonzero.
-/
import proofs.«416394_j29111288332476_3_alg».proof.Proof.Spec

noncomputable section

open scoped BigOperators
open Idealize.ShloMosaic Idealize.ShloMosaic.ValueIdx

namespace Cert.Spec

theorem zero32_eq : zero32 = 0 := by
  unfold zero32; simp [Ideal.ofBits, Ideal.ieee]
theorem one32_eq : one32 = 1 := by
  unfold one32; simp [Ideal.ofBits, Ideal.ieee, -EReal.coe_mul]; norm_num
theorem one16_eq : one16 = 1 := by
  unfold one16; simp [Ideal.ofBits, Ideal.ieee, -EReal.coe_mul]; norm_num
theorem two32_eq : two32 = ((2 : ℝ) : EReal) := by
  unfold two32; simp [Ideal.ofBits, Ideal.ieee, -EReal.coe_mul]; norm_num

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The 32 tiles of 4096 rows exhaust the batch. -/
theorem sum_tiles (g : Fin 131072 → EReal) :
    ∑ t : Fin 32, ∑ b : Fin 4096, g (tileRow t b) = ∑ j : Fin 131072, g j := by
  rw [← Fintype.sum_prod_type' (f := fun t b => g (tileRow t b))]
  refine Fintype.sum_equiv (finProdFinEquiv.trans (finCongr (by norm_num))) _ _ ?_
  rintro ⟨t, b⟩
  congr 1
  apply Fin.ext
  simp [tileRow, finProdFinEquiv]
  omega

/-- The two halves of 16 tiles exhaust the 32 tiles. -/
theorem sum_halves (G : Fin 32 → EReal) :
    (∑ i : Fin 16, G (halfTile 0 i)) + (∑ i : Fin 16, G (halfTile 1 i)) = ∑ t : Fin 32, G t := by
  rw [← Fin.sum_univ_two (f := fun h => ∑ i : Fin 16, G (halfTile h i))]
  rw [← Fintype.sum_prod_type' (f := fun h i => G (halfTile h i))]
  refine Fintype.sum_equiv (finProdFinEquiv.trans (finCongr (by norm_num))) _ _ ?_
  rintro ⟨h, i⟩
  congr 1
  apply Fin.ext
  simp [halfTile, finProdFinEquiv]
  omega

/-- For a class below 1000 the label word is the class's word exactly when the label, read signed, is the class. -/
theorem word_iff (l : BitVec 32) (c : Nat) (hc : c < 1000) : BitVec.ofNat 32 c = l ↔ l.toInt = (c : Int) := by
  constructor
  · rintro rfl
    rw [BitVec.toInt_eq_toNat_cond]
    simp [BitVec.toNat_ofNat]
    omega
  · intro h
    apply BitVec.eq_of_toNat_eq
    rw [BitVec.toInt_eq_toNat_cond] at h
    have := l.isLt
    simp [BitVec.toNat_ofNat]
    split at h <;> omega

theorem hit_mul (l : BitVec 32) (c : Nat) (hc : c < 1000) (v : EReal) :
    hit l c * v = if l.toInt = (c : Int) then v else 0 := by
  unfold hit
  by_cases h : l.toInt = (c : Int)
  · rw [if_pos ((word_iff l c hc).2 h), if_pos h, one_mul]
  · rw [if_neg (fun h' => h ((word_iff l c hc).1 h')), if_neg h, zero_mul]

/-- The two halves' sums of class `cls` are the sum over the rows whose label, read signed, is `cls`. -/
theorem halves_eq_filter (feat : (⟨2, ![131072, 512]⟩ : Shape).Idx → EReal) (lbl : Fin 131072 → BitVec 32) (cls : Fin 1000) (d : Fin 512) :
    halfSum feat lbl 0 (cls.castLE (by decide)) d + halfSum feat lbl 1 (cls.castLE (by decide)) d
      = ∑ j ∈ Finset.univ.filter (fun j : Fin 131072 => (lbl j).toInt = (cls.val : Int)), feat (ix2 j d) := by
  unfold halfSum
  rw [sum_halves (fun t => tileSum feat lbl t (cls.castLE (by decide)) d)]
  unfold tileSum
  rw [sum_tiles (fun j => hit (lbl j) (cls.castLE (by decide) : Fin 1024).val * feat (ix2 j d))]
  rw [Finset.sum_filter]
  refine Finset.sum_congr rfl fun j _ => ?_
  exact hit_mul (lbl j) cls.val cls.isLt _

theorem cnt_halves_eq_filter (lbl : Fin 131072 → BitVec 32) (cls : Fin 1000) :
    halfCnt lbl 0 (cls.castLE (by decide)) + halfCnt lbl 1 (cls.castLE (by decide))
      = ∑ j ∈ Finset.univ.filter (fun j : Fin 131072 => (lbl j).toInt = (cls.val : Int)), one32 := by
  unfold halfCnt
  rw [sum_halves (fun t => tileCnt lbl t (cls.castLE (by decide)))]
  unfold tileCnt
  rw [sum_tiles (fun j => hit (lbl j) (cls.castLE (by decide) : Fin 1024).val * one16)]
  rw [Finset.sum_filter]
  refine Finset.sum_congr rfl fun j _ => ?_
  rw [one16_eq, one32_eq]
  exact hit_mul (lbl j) cls.val cls.isLt _

/-- The sum of the squares of a row of reals is a real. -/
theorem sq_real (x : Fin 512 → EReal) (r : Fin 512 → ℝ) (hr : ∀ k, x k = (r k : EReal)) :
    sq x = ((∑ k : Fin 512, r k * r k : ℝ) : EReal) := by
  unfold sq
  rw [coe_sum]
  refine Finset.sum_congr rfl fun k _ => ?_
  rw [hr k, EReal.coe_mul]

/-- On the diagonal the squared distance of a row of reals from itself is zero, so forcing it to zero changes nothing. -/
theorem distMasked_eq_dist (same : Prop) [Decidable same] (x y : Fin 512 → EReal) (hx : ∀ k, ∃ r : ℝ, x k = (r : EReal))
    (h : same → x = y) : distMasked same x y = dist x y := by
  unfold distMasked dist
  by_cases hs : same
  · rw [if_pos hs]
    obtain rfl := h hs
    choose r hr using hx
    have hdot : dot x x = sq x := rfl
    congr 1
    unfold gap
    rw [hdot, sq_real x r hr, two32_eq, zero32_eq]
    rw [← EReal.coe_add, ← EReal.coe_mul, ← EReal.coe_sub]
    have : (∑ k : Fin 512, r k * r k) + (∑ k : Fin 512, r k * r k) - 2 * (∑ k : Fin 512, r k * r k) = 0 := by ring
    rw [this]
    simp
  · rw [if_neg hs]

/-- A sum of reals from zero is a real. -/
theorem filter_sum_real {ι : Type} [Fintype ι] (p : ι → Prop) [DecidablePred p] (f : ι → EReal) (hf : ∀ j, ∃ r : ℝ, f j = (r : EReal)) :
    ∃ r : ℝ, (zero32 + ∑ j ∈ Finset.univ.filter p, f j) = (r : EReal) := by
  choose r hr using hf
  refine ⟨∑ j ∈ Finset.univ.filter p, r j, ?_⟩
  rw [zero32_eq, zero_add, coe_sum]
  exact Finset.sum_congr rfl fun j _ => hr j

/-- A real over a real clamped below at one is a real. -/
theorem center_real (c s n : EReal) (hc : ∃ r : ℝ, c = (r : EReal)) (hs : ∃ r : ℝ, s = (r : EReal)) (hn : ∃ r : ℝ, n = (r : EReal)) :
    ∃ r : ℝ, Ideal.div (c + s) (max n one32) = (r : EReal) := by
  obtain ⟨c', rfl⟩ := hc
  obtain ⟨s', rfl⟩ := hs
  obtain ⟨n', rfl⟩ := hn
  have hmax : max (n' : EReal) one32 = ((max n' 1 : ℝ) : EReal) := by
    rw [one32_eq, ← EReal.coe_one]
    exact (EReal.coe_strictMono.monotone.map_max).symm
  have hne : max n' 1 ≠ 0 := by
    have : (1 : ℝ) ≤ max n' 1 := le_max_right _ _
    intro h0
    rw [h0] at this
    linarith
  refine ⟨(c' + s') * (1 / max n' 1), ?_⟩
  rw [hmax, Ideal.div_coe hne, ← EReal.coe_add, ← EReal.coe_mul]

end Cert.Spec

end
-- ==== Proof.Bridge.lean ====
/-
  The two programs compute the same new centers and the same loss.

  NEW CENTER.  The kernel's new center at `(cls, d)` is the center plus the two halves' segment sums over the two
  halves' counts clamped below at one; the two halves' sums are the sum over all rows labelled `cls`, which is what the
  reference's accumulating scatter holds there; likewise the counts.
  DISTANCES.  The kernel's distance array, member `s`, rows `i j < 1000`, is the distance of rows `i` and `j` of the
  center (member 0) or of the new center (member 1), forced to the root of zero on the diagonal; those rows are rows of
  reals (the inputs are finite, and the new center is a real over a real at least one), so the forcing changes
  nothing, and the reference's distance arrays are the same distances.
  LOSS.  Both programs apply the same hinge loss to the two distance arrays.
-/
import proofs.«416394_j29111288332476_3_alg».proof.Defs
import proofs.«416394_j29111288332476_3_alg».proof.Proof.Gen.KernelIdeal.Frame
import proofs.«416394_j29111288332476_3_alg».proof.Proof.Gen.ReferenceIdeal.Read
import proofs.«416394_j29111288332476_3_alg».proof.Proof.Spec
import proofs.«416394_j29111288332476_3_alg».proof.Proof.SegRegion
import proofs.«416394_j29111288332476_3_alg».proof.Proof.DistRegion
import proofs.«416394_j29111288332476_3_alg».proof.Proof.HostMid
import proofs.«416394_j29111288332476_3_alg».proof.Proof.HostTail
import proofs.«416394_j29111288332476_3_alg».proof.Proof.RefSide
import proofs.«416394_j29111288332476_3_alg».proof.Proof.SegAlgebra

noncomputable section

open scoped BigOperators
open Idealize.ShloMosaic Idealize.ShloMosaic.TcCoe Idealize.SL.Sem Idealize.ShloMosaic.ValueIdx

namespace Cert.Bridge

open Cert.KernelIdeal Cert.KernelIdeal.Gen

variable (m : (ℓ : Loc nD τ sig) → Buf (Elt Ideal) ℓ) (ρ : Dev nD → PrngReg) (c : Dev nD)

/-- The three argument arrays, at their literal types. -/
abbrev feat : FVec Ideal S131072x512 .f32 := m ((c : Thread nD τ).loc main_arg0)
abbrev cen : FVec Ideal S1000x512 .f32 := m ((c : Thread nD τ).loc main_arg1)
abbrev lbl : IVec S131072 32 := m ((c : Thread nD τ).loc main_arg2)

/-- The reference's new center, as a function of the kernel's argument arrays. -/
abbrev refCenter : FVec Ideal S1000x512 .f32 :=
  Cert.ReferenceIdeal.Read.val_main_v36 (F := Ideal) (feat m c) (cen m c) (lbl m c)

/-- A half of the kernel's sums array is that half's segment sums of the launch features and labels. -/
theorem sumsPad_eq (h : Fin 2) (cls : Fin 1024) (d : Fin 512) :
    HostMid.sumsPad m ρ c (ix3 h cls d) = Cert.Spec.halfSum (feat m c) (fun n => lbl m c (ix1 n)) h cls d := by
  refine (congrFun (hF0 m ρ c 2) (ix3 h cls d)).symm.trans ?_
  rw [SegRegion.sums_final, HostMid.feat_W1]
  exact congrArg (fun l => Cert.Spec.halfSum (feat m c) l h cls d) (funext fun n => HostMid.lbl_W1 m ρ c n)

theorem cntPad_eq (h : Fin 2) (cls : Fin 1024) :
    HostMid.cntPad m ρ c (ix3 h cls 0) = Cert.Spec.halfCnt (fun n => lbl m c (ix1 n)) h cls := by
  refine (congrFun (hF0 m ρ c 3) (ix3 h cls 0)).symm.trans ?_
  rw [SegRegion.counts_final]
  exact congrArg (fun l => Cert.Spec.halfCnt l h cls) (funext fun n => HostMid.lbl_W1 m ρ c n)

/-- The kernel's new center is the reference's. -/
theorem newCen_eq : HostMid.newCen m ρ c = refCenter m c := by
  funext j
  obtain ⟨cls, d, rfl⟩ : ∃ (cls : Fin 1000) (d : Fin 512), j = ix2 cls d := ⟨j 0, j 1, eq_ix2 j⟩
  show _ = Cert.ReferenceIdeal.Read.val_main_v36 (F := Ideal) (feat m c) (cen m c) (lbl m c) (ix2 cls d)
  rw [HostMid.center_W7, Cert.ReferenceIdeal.RefSide.ref_center, sumsPad_eq, sumsPad_eq, cntPad_eq, cntPad_eq,
    Cert.Spec.halves_eq_filter, Cert.Spec.cnt_halves_eq_filter, Cert.Spec.zero32_eq, zero_add, zero_add]

/-- So the new-center buffer after the run holds the reference's new center. -/
theorem center_final : W11 m ρ c (Proc.devRef .tc main_v17) = refCenter m c :=
  (HostTail.center_W11 m ρ c).trans (newCen_eq m ρ c)

section Reals

variable (hfeat : ∀ i, ∃ r : ℝ, feat m c i = (r : EReal)) (hcen : ∀ i, ∃ r : ℝ, cen m c i = (r : EReal))
include hfeat hcen

/-- With real inputs every entry of the new center is a real: a real over a real at least one. -/
theorem refCenter_real (cls : Fin 1000) (d : Fin 512) : ∃ r : ℝ, refCenter m c (ix2 cls d) = (r : EReal) := by
  show ∃ r : ℝ, Cert.ReferenceIdeal.Read.val_main_v36 (F := Ideal) (feat m c) (cen m c) (lbl m c) (ix2 cls d) = (r : EReal)
  rw [Cert.ReferenceIdeal.RefSide.ref_center]
  exact Cert.Spec.center_real _ _ _ (hcen _) (Cert.Spec.filter_sum_real _ _ fun j => hfeat _)
    (Cert.Spec.filter_sum_real _ _ fun _ => ⟨1, Cert.Spec.one32_eq.trans EReal.coe_one.symm⟩)

omit hfeat in
/-- Member 0 of the kernel's distance array, on its leading 1000 by 1000 block, is the reference's initial distances. -/
theorem dist0_eq (i j : Fin 1000) :
    V8 m ρ c main_v23 (ix3 0 (i.castLE (by decide)) (j.castLE (by decide)))
      = Cert.ReferenceIdeal.Read.val_main_v20 (F := Ideal) (cen m c) (ix2 i j) := by
  refine (congrFun (hF1 m ρ c 1) (ix3 0 (i.castLE (by decide)) (j.castLE (by decide)))).symm.trans ?_
  rw [DistRegion.dist_final, Cert.ReferenceIdeal.RefSide.ref_dinit]
  have e : ∀ r : Fin 1000, (fun k => V7 m ρ c main_v22 (ix3 0 (r.castLE (by decide)) k)) = fun k => cen m c (ix2 r k) :=
    fun r => funext fun k => HostMid.stack0_W7 m ρ c r k
  rw [e i, e j]
  exact Cert.Spec.distMasked_eq_dist _ _ _ (fun k => hcen _)
    (fun h => by have hij : i = j := Fin.ext (by have := congrArg Fin.val h; simpa using this); rw [hij])

/-- Member 1 is the reference's new distances. -/
theorem dist1_eq (i j : Fin 1000) :
    V8 m ρ c main_v23 (ix3 1 (i.castLE (by decide)) (j.castLE (by decide)))
      = Cert.ReferenceIdeal.Read.val_main_v57 (F := Ideal) (feat m c) (cen m c) (lbl m c) (ix2 i j) := by
  refine (congrFun (hF1 m ρ c 1) (ix3 1 (i.castLE (by decide)) (j.castLE (by decide)))).symm.trans ?_
  rw [DistRegion.dist_final, Cert.ReferenceIdeal.RefSide.ref_dnew]
  have e : ∀ r : Fin 1000, (fun k => V7 m ρ c main_v22 (ix3 1 (r.castLE (by decide)) k))
      = fun k => Cert.ReferenceIdeal.Read.val_main_v36 (F := Ideal) (feat m c) (cen m c) (lbl m c) (ix2 r k) :=
    fun r => funext fun k => (HostMid.stack1_W7 m ρ c r k).trans (congrFun (newCen_eq m ρ c) (ix2 r k))
  rw [e i, e j]
  exact Cert.Spec.distMasked_eq_dist _ _ _ (fun k => refCenter_real m c hfeat hcen _ _)
    (fun h => by have hij : i = j := Fin.ext (by have := congrArg Fin.val h; simpa using this); rw [hij])

/-- So the loss buffer after the run holds the reference's loss: the same hinge loss of the same two arrays. -/
theorem loss_final :
    W11 m ρ c (Proc.devRef .tc main_v37)
      = Cert.ReferenceIdeal.Read.val_main_v64 (F := Ideal) (feat m c) (cen m c) (lbl m c) := by
  rw [HostTail.loss_W11, Cert.ReferenceIdeal.RefSide.ref_loss]
  have e0 : (fun j : S1000x1000.Idx => V8 m ρ c main_v23 (ix3 0 ((j 0).castLE (by decide)) ((j 1).castLE (by decide))))
      = Cert.ReferenceIdeal.Read.val_main_v20 (F := Ideal) (cen m c) := funext fun j => by
    obtain ⟨p, q, rfl⟩ : ∃ (p q : Fin 1000), j = ix2 p q := ⟨j 0, j 1, eq_ix2 j⟩
    exact dist0_eq m ρ c hcen p q
  have e1 : (fun j : S1000x1000.Idx => V8 m ρ c main_v23 (ix3 1 ((j 0).castLE (by decide)) ((j 1).castLE (by decide))))
      = Cert.ReferenceIdeal.Read.val_main_v57 (F := Ideal) (feat m c) (cen m c) (lbl m c) := funext fun j => by
    obtain ⟨p, q, rfl⟩ : ∃ (p q : Fin 1000), j = ix2 p q := ⟨j 0, j 1, eq_ix2 j⟩
    exact dist1_eq m ρ c hfeat hcen p q
  rw [e0, e1]

end Reals

end Cert.Bridge

end
-- ==== Proof.lean ====
/-
  The certificate of the center-update kernel against its reference.

  The kernel computes, per class, the sum and the number of the feature rows labelled with that class by a one-hot
  matrix product accumulated over 32 tiles of the batch in two halves, adds the two halves, forms the new centers
  `(center + sums) / max(counts, 1)`, and in a second call the pairwise distances of the centers and of the new centers
  (diagonal forced to zero), from which the host forms the hinge loss.  The reference accumulates the same sums and
  counts by two scatters, forms the same new centers and the distances without the forcing, and the same loss.

  The three frames are the generated ones (the reference's is its generated run with the results dropped); nothing was
  rewritten by the idealization; and at the extended reals the two programs end with equal results: the kernel's run
  names its two result buffers at the fold of @main's segments, that fold is read region by region and stretch by
  stretch, and it meets the reference's stages (the bridge): the segment sums are the scatters' sums, and a row of
  reals has distance zero from itself, which is where the finiteness of the inputs is used.
-/
import proofs.«416394_j29111288332476_3_alg».proof.Defs
import proofs.«416394_j29111288332476_3_alg».proof.Proof.Gen.Kernel
import proofs.«416394_j29111288332476_3_alg».proof.Proof.Gen.Kernel.Frame
import proofs.«416394_j29111288332476_3_alg».proof.Proof.Gen.KernelIdeal
import proofs.«416394_j29111288332476_3_alg».proof.Proof.Gen.KernelIdeal.Frame
import proofs.«416394_j29111288332476_3_alg».proof.Proof.Gen.ReferenceIdeal
import proofs.«416394_j29111288332476_3_alg».proof.Proof.Gen.ReferenceIdeal.Run
import proofs.«416394_j29111288332476_3_alg».proof.Proof.Gen.ReferenceIdeal.Read
import proofs.«416394_j29111288332476_3_alg».proof.Proof.Gen.Pre_finite_inputs
import proofs.«416394_j29111288332476_3_alg».proof.Proof.RunValues
import proofs.«416394_j29111288332476_3_alg».proof.Proof.FiniteInputs
import proofs.«416394_j29111288332476_3_alg».proof.Proof.Bridge

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the extended reals both programs end with the reference's loss and new centers of the (shared) arguments. -/
theorem algebraic : Cert.algebraic_KernelIdeal_ReferenceIdeal := by
  intro m ρ m' ρ' hpre hagree
  have hreal := fun c => Cert.FiniteInputs.reals_of_pre _ _ _ (hpre c)
  refine ⟨fun c => Cert.ReferenceIdeal.Read.val_main_v64 (F := Ideal) (Cert.Bridge.feat m c) (Cert.Bridge.cen m c) (Cert.Bridge.lbl m c),
    fun c => Cert.Bridge.refCenter m c, ?_, ?_⟩
  · refine (θ_run Cert.KernelIdeal.defs _ _).mono (fun r h c => ?_) (Cert.KernelIdeal.RunValues.run (F := Ideal) m ρ)
    exact ⟨(h c).1.trans (Cert.Bridge.loss_final m ρ c (hreal c).1 (hreal c).2),
      (h c).2.1.trans (Cert.Bridge.center_final m ρ c), (h c).2.2⟩
  · refine (θ_run Cert.ReferenceIdeal.defs _ _).mono (fun r h c => ?_) (Cert.ReferenceIdeal.Value.run (F := Ideal) m' ρ')
    refine ⟨(h c).1.trans ?_, (h c).2.1.trans ?_, (h c).2.2⟩
    · rw [Cert.ReferenceIdeal.Read.val_main_v64_eq, (hagree c).1, (hagree c).2.1, (hagree c).2.2]
    · rw [(hagree c).1, (hagree c).2.1, (hagree c).2.2]
      exact Cert.ReferenceIdeal.Read.val_main_v36_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
